-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S400000x147 : Shape := ⟨2, ![400000, 147]⟩
abbrev S400000 : Shape := ⟨1, ![400000]⟩
abbrev S300x147 : Shape := ⟨2, ![300, 147]⟩
abbrev S300 : Shape := ⟨1, ![300]⟩
abbrev S300x300 : Shape := ⟨2, ![300, 300]⟩
abbrev S300x433 : Shape := ⟨2, ![300, 433]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S400000x147 : S_.BroadcastsInDim S400000x147 (![] : Fin 0 → Fin S400000x147.rank)
  reducesTo_S400000x147_S_d0_1 : S400000x147.ReducesTo [0, 1] S_
  bcast_S_S300x147 : S_.BroadcastsInDim S300x147 (![] : Fin 0 → Fin S300x147.rank)
  reducesTo_S300x147_S_d0_1 : S300x147.ReducesTo [0, 1] S_
  bcast_S_S300 : S_.BroadcastsInDim S300 (![] : Fin 0 → Fin S300.rank)
  reducesTo_S300_S_d0 : S300.ReducesTo [0] S_
  bcast_S_S300x300 : S_.BroadcastsInDim S300x300 (![] : Fin 0 → Fin S300x300.rank)
  reducesTo_S300x300_S_d0_1 : S300x300.ReducesTo [0, 1] S_
  bcast_S_S300x433 : S_.BroadcastsInDim S300x433 (![] : Fin 0 → Fin S300x433.rank)
  reducesTo_S300x433_S_d0_1 : S300x433.ReducesTo [0, 1] S_

variable [Facts]

def fn_part2 {F : FTy → Type} [FloatOps F] (main_arg9 : FVec F S300 .f32) (main_v33 : IVec S_ 1) : IVec S_ 1 :=
  let main_v34 : FVec F S300 .f32 := Host.absf main_arg9
  let main_cst_12 : FVec F S_ .f32 := constant S_ .f32 0x7F800000#32
  let main_v35 : FVec F S300 .f32 := broadcastInDim S300 ![] bcast_S_S300 main_cst_12
  let main_v36 : IVec S300 1 := cmpf .olt main_v34 main_v35
  let main_c_13 : IVec S_ 1 := constantI S_ 1 1#1
  let main_v37 : IVec S_ 1 := (fun x v => Host.reduce IntOp.andi x v reducesTo_S300_S_d0 h_S_) main_v36 main_c_13
  let main_v38 : IVec S_ 1 := andi main_v33 main_v37
  main_v38

def fn_part1 {F : FTy → Type} [FloatOps F] (main_arg6 : FVec F S300x300 .f32) (main_arg7 : FVec F S300 .f32) (main_arg8 : FVec F S300x433 .f32) (main_arg9 : FVec F S300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg6
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg7
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S300x433 .f32 := Host.absf main_arg8
  let main_cst_10 : FVec F S_ .f32 := constant S_ .f32 0x7F800000#32
  let main_v30 : FVec F S300x433 .f32 := broadcastInDim S300x433 ![] bcast_S_S300x433 main_cst_10
  let main_v31 : IVec S300x433 1 := cmpf .olt main_v29 main_v30
  let main_c_11 : IVec S_ 1 := constantI S_ 1 1#1
  let main_v32 : IVec S_ 1 := (fun x v => Host.reduce IntOp.andi x v reducesTo_S300x433_S_d0_1 h_S_) main_v31 main_c_11
  let main_v33 : IVec S_ 1 := andi main_v28 main_v32
  fn_part2 (F := F) main_arg9 main_v33

def fn {F : FTy → Type} [FloatOps F] (main_arg0 : FVec F S100000x133 .f32) (main_arg1 : FVec F S400000x147 .f32) (main_arg2 : IVec S400000 32) (main_arg3 : IVec S400000 32) (main_arg4 : FVec F S300x147 .f32) (main_arg5 : FVec F S300 .f32) (main_arg6 : FVec F S300x300 .f32) (main_arg7 : FVec F S300 .f32) (main_arg8 : FVec F S300x433 .f32) (main_arg9 : FVec F S300 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S400000x147 .f32 := Host.absf main_arg1
  let main_cst_0 : FVec F S_ .f32 := constant S_ .f32 0x7F800000#32
  let main_v5 : FVec F S400000x147 .f32 := broadcastInDim S400000x147 ![] bcast_S_S400000x147 main_cst_0
  let main_v6 : IVec S400000x147 1 := cmpf .olt main_v4 main_v5
  let main_c_1 : IVec S_ 1 := constantI S_ 1 1#1
  let main_v7 : IVec S_ 1 := (fun x v => Host.reduce IntOp.andi x v reducesTo_S400000x147_S_d0_1 h_S_) main_v6 main_c_1
  let main_v8 : IVec S_ 1 := andi main_v3 main_v7
  let main_v9 : FVec F S300x147 .f32 := Host.absf main_arg4
  let main_cst_2 : FVec F S_ .f32 := constant S_ .f32 0x7F800000#32
  let main_v10 : FVec F S300x147 .f32 := broadcastInDim S300x147 ![] bcast_S_S300x147 main_cst_2
  let main_v11 : IVec S300x147 1 := cmpf .olt main_v9 main_v10
  let main_c_3 : IVec S_ 1 := constantI S_ 1 1#1
  let main_v12 : IVec S_ 1 := (fun x v => Host.reduce IntOp.andi x v reducesTo_S300x147_S_d0_1 h_S_) main_v11 main_c_3
  let main_v13 : IVec S_ 1 := andi main_v8 main_v12
  let main_v14 : FVec F S300 .f32 := Host.absf main_arg5
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg6 main_arg7 main_arg8 main_arg9 main_v13 main_v16
-- ==== Kernel.lean ====
abbrev S100000x133 : Shape := ⟨2, ![100000, 133]⟩
abbrev S400000x147 : Shape := ⟨2, ![400000, 147]⟩
abbrev S400000 : Shape := ⟨1, ![400000]⟩
abbrev S300x147 : Shape := ⟨2, ![300, 147]⟩
abbrev S300 : Shape := ⟨1, ![300]⟩
abbrev S300x300 : Shape := ⟨2, ![300, 300]⟩
abbrev S300x433 : Shape := ⟨2, ![300, 433]⟩
abbrev S147x300 : Shape := ⟨2, ![147, 300]⟩
abbrev S433x300 : Shape := ⟨2, ![433, 300]⟩
abbrev S133x300 : Shape := ⟨2, ![133, 300]⟩
abbrev S1x300 : Shape := ⟨2, ![1, 300]⟩
abbrev S400000x300 : Shape := ⟨2, ![400000, 300]⟩
abbrev S10000x147 : Shape := ⟨2, ![10000, 147]⟩
abbrev S10000x300 : Shape := ⟨2, ![10000, 300]⟩
abbrev S_ : Shape := ⟨0, ![]⟩
abbrev S400000x1 : Shape := ⟨2, ![400000, 1]⟩
abbrev S100000x300 : Shape := ⟨2, ![100000, 300]⟩
abbrev S5000x300 : Shape := ⟨2, ![5000, 300]⟩
abbrev S5000x133 : Shape := ⟨2, ![5000, 133]⟩

abbrev nBuf : Space → Nat
  | .hbm => 81
  | .vmem => 31
  | .smem => 0
  | _ => 0

abbrev bufTy : (tb : Table) → Fin (tcTables nBuf tb) → BufTy
  | .hbm, ⟨0, _⟩ => ⟨S100000x133, .f32⟩
  | .hbm, ⟨1, _⟩ => ⟨S400000x147, .f32⟩
  | .hbm, ⟨2, _⟩ => ⟨S400000, .i32⟩
  | .hbm, ⟨3, _⟩ => ⟨S400000, .i32⟩
  | .hbm, ⟨4, _⟩ => ⟨S300x147, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S300x433, .f32⟩
  | .hbm, ⟨9, _⟩ => ⟨S300, .f32⟩
  | .hbm, ⟨10, _⟩ => ⟨S147x300, .f32⟩
  | .hbm, ⟨11, _⟩ => ⟨S300x300, .f32⟩
  | .hbm, ⟨12, _⟩ => ⟨S433x300, .f32⟩
  | .hbm, ⟨13, _⟩ => ⟨S133x300, .f32⟩
  | .hbm, ⟨14, _⟩ => ⟨S300x300, .f32⟩
  | .hbm, ⟨15, _⟩ => ⟨S1x300, .f32⟩
  | .hbm, ⟨16, _⟩ => ⟨S1x300, .f32⟩
  | .hbm, ⟨17, _⟩ => ⟨S1x300, .f32⟩
  | .hbm, ⟨18, _⟩ => ⟨S400000x300, .f32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000, .i32⟩
  | .hbm, ⟨28, _⟩ => ⟨S_, .f32⟩
  | .hbm, ⟨29, _⟩ => ⟨S100000x300, .f32⟩
  | .hbm, ⟨30, _⟩ => ⟨S400000x1, .i32⟩
  | .hbm, ⟨31, _⟩ => ⟨S100000x300, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x300, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x300, .f32⟩
  | .hbm, ⟨50, _⟩ => ⟨S400000x300, .f32⟩
  | .hbm, ⟨51, _⟩ => ⟨S400000x300, .f32⟩
  | .hbm, ⟨52, _⟩ => ⟨S_, .f32⟩
  | .hbm, ⟨53, _⟩ => ⟨S100000x300, .f32⟩
  | .hbm, ⟨54, _⟩ => ⟨S400000x1, .i32⟩
  | .hbm, ⟨55, _⟩ => ⟨S100000x300, .f32⟩
  | .hbm, ⟨56, _⟩ => ⟨S_, .i32⟩
  | .hbm, ⟨57, _⟩ => ⟨S400000, .i32⟩
  | .hbm, ⟨58, _⟩ => ⟨S400000, .i1⟩
  | .hbm, ⟨59, _⟩ => ⟨S_, .i32⟩
  | .hbm, ⟨60, _⟩ => ⟨S400000, .i32⟩
  | .hbm, ⟨61, _⟩ => ⟨S400000, .i32⟩
  | .hbm, ⟨62, _⟩ => ⟨S400000, .i32⟩
  | .hbm, ⟨63, _⟩ => ⟨S400000x1, .i32⟩
  | .hbm, ⟨64, _⟩ => ⟨S400000x300, .f32⟩
  | .hbm, ⟨65, _⟩ => ⟨S_, .i32⟩
  | .hbm, ⟨66, _⟩ => ⟨S400000, .i32⟩
  | .hbm, ⟨67, _⟩ => ⟨S400000, .i1⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S400000x1, .i32⟩
  | .hbm, ⟨73, _⟩ => ⟨S400000x300, .f32⟩
  | .hbm, ⟨74, _⟩ => ⟨S400000x300, .f32⟩
  | .hbm, ⟨75, _⟩ => ⟨S400000x300, .f32⟩
  | .hbm, ⟨76, _⟩ => ⟨S_, .f32⟩
  | .hbm, ⟨77, _⟩ => ⟨S100000x300, .f32⟩
  | .hbm, ⟨78, _⟩ => ⟨S400000x1, .i32⟩
  | .hbm, ⟨79, _⟩ => ⟨S100000x300, .f32⟩
  | .hbm, ⟨80, _⟩ => ⟨S100000x300, .f32⟩
  | .local _ .vmem, ⟨0, _⟩ => ⟨S10000x147, .f32⟩
  | .local _ .vmem, ⟨1, _⟩ => ⟨S10000x147, .f32⟩
  | .local _ .vmem, ⟨2, _⟩ => ⟨S147x300, .f32⟩
  | .local _ .vmem, ⟨3, _⟩ => ⟨S1x300, .f32⟩
  | .local _ .vmem, ⟨4, _⟩ => ⟨S10000x300, .f32⟩
  | .local _ .vmem, ⟨5, _⟩ => ⟨S10000x300, .f32⟩
  | .local _ .vmem, ⟨6, _⟩ => ⟨S5000x300, .f32⟩
  | .local _ .vmem, ⟨7, _⟩ => ⟨S5000x300, .f32⟩
  | .local _ .vmem, ⟨8, _⟩ => ⟨S5000x300, .f32⟩
  | .local _ .vmem, ⟨9, _⟩ => ⟨S5000x300, .f32⟩
  | .local _ .vmem, ⟨10, _⟩ => ⟨S300x300, .f32⟩
  | .local _ .vmem, ⟨11, _⟩ => ⟨S1x300, .f32⟩
  | .local _ .vmem, ⟨12, _⟩ => ⟨S5000x300, .f32⟩
  | .local _ .vmem, ⟨13, _⟩ => ⟨S5000x300, .f32⟩
  | .local _ .vmem, ⟨14, _⟩ => ⟨S5000x300, .f32⟩
  | .local _ .vmem, ⟨15, _⟩ => ⟨S5000x300, .f32⟩
  | .local _ .vmem, ⟨16, _⟩ => ⟨S5000x300, .f32⟩
  | .local _ .vmem, ⟨17, _⟩ => ⟨S5000x300, .f32⟩
  | .local _ .vmem, ⟨18, _⟩ => ⟨S300x300, .f32⟩
  | .local _ .vmem, ⟨19, _⟩ => ⟨S1x300, .f32⟩
  | .local _ .vmem, ⟨20, _⟩ => ⟨S5000x300, .f32⟩
  | .local _ .vmem, ⟨21, _⟩ => ⟨S5000x300, .f32⟩
  | .local _ .vmem, ⟨22, _⟩ => ⟨S5000x133, .f32⟩
  | .local _ .vmem, ⟨23, _⟩ => ⟨S5000x133, .f32⟩
  | .local _ .vmem, ⟨24, _⟩ => ⟨S5000x300, .f32⟩
  | .local _ .vmem, ⟨25, _⟩ => ⟨S5000x300, .f32⟩
  | .local _ .vmem, ⟨26, _⟩ => ⟨S133x300, .f32⟩
  | .local _ .vmem, ⟨27, _⟩ => ⟨S300x300, .f32⟩
  | .local _ .vmem, ⟨28, _⟩ => ⟨S1x300, .f32⟩
  | .local _ .vmem, ⟨29, _⟩ => ⟨S5000x300, .f32⟩
  | .local _ .vmem, ⟨30, _⟩ => ⟨S5000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x300 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x300 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  transposes_S300x147_S147x300_1_0 : S300x147.Transposes [1, 0] S147x300
  transposes_S300x300_S300x300_1_0 : S300x300.Transposes [1, 0] S300x300
  transposes_S300x433_S433x300_1_0 : S300x433.Transposes [1, 0] S433x300
  slices_S433x300_S133x300_0_0 : S433x300.Slices ![0, 0] S133x300
  slices_S433x300_S300x300_133_0 : S433x300.Slices ![133, 0] S300x300
  shapeCasts_S300_S1x300 : S300.ShapeCasts S1x300
  inb_S10000x147_S10000x147_0_0 : ∀ a, (![0, 0] : Fin 2 → Nat) a + S10000x147.size a ≤ S10000x147.size a
  h_S10000x147 : 0 < S10000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  shapeCasts_S147x300_S147x300 : S147x300.ShapeCasts S147x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S10000x300 : S1x300.Broadcasts S10000x300
  inb_S10000x300_S10000x300_0_0 : ∀ a, (![0, 0] : Fin 2 → Nat) a + S10000x300.size a ≤ S10000x300.size a
  h_S10000x300 : 0 < S10000x300.numel
  bcast_S_S400000 : S_.BroadcastsInDim S400000 (![] : Fin 0 → Fin S400000.rank)
  bcast_S400000_S400000x1_0 : S400000.BroadcastsInDim S400000x1 (![0] : Fin 1 → Fin S400000x1.rank)
  bcast_S_S100000x300 : S_.BroadcastsInDim S100000x300 (![] : Fin 0 → Fin S100000x300.rank)
  inb_S5000x300_S5000x300_0_0 : ∀ a, (![0, 0] : Fin 2 → Nat) a + S5000x300.size a ≤ S5000x300.size a
  h_S5000x300 : 0 < S5000x300.numel
  shapeCasts_S5000x300_S5000x300 : S5000x300.ShapeCasts S5000x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  broadcasts_S1x300_S5000x300 : S1x300.Broadcasts S5000x300
  inb_S5000x133_S5000x133_0_0 : ∀ a, (![0, 0] : Fin 2 → Nat) a + S5000x133.size a ≤ S5000x133.size a
  h_S5000x133 : 0 < S5000x133.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  dot_S10000x147_S147x300_S10000x300_1_0_0_1_n_n_wf : DotDims.WF S10000x147 S147x300 S10000x300 [1] [0] [0] [1] [] []
  gather_S400000_S400000x1_S400000_n_0_n_n_0_1_1_wf : GatherDims.WF S400000 S400000x1 S400000 [] [0] [] [0] [] 1 ![1]
  scatter_S100000x300_S400000x1_S400000x300_1_0_0_1_wf : ScatterDims.WF S100000x300 S400000x1 S400000x300 [1] [0] [0] 1
  gather_S100000x300_S400000x1_S400000x300_1_0_n_n_0_1_1300_wf : GatherDims.WF S100000x300 S400000x1 S400000x300 [1] [0] [] [0] [] 1 ![1, 300]
  gather_S400000x300_S400000x1_S400000x300_1_0_n_n_0_1_1300_wf : GatherDims.WF S400000x300 S400000x1 S400000x300 [1] [0] [] [0] [] 1 ![1, 300]
  dot_S5000x300_S300x300_S5000x300_1_0_0_1_n_n_wf : DotDims.WF S5000x300 S300x300 S5000x300 [1] [0] [0] [1] [] []
  dot_S5000x133_S133x300_S5000x300_1_0_0_1_n_n_wf : DotDims.WF S5000x133 S133x300 S5000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x147.size a ≤ S400000x147.size a
  hwx0_0 : ∀ i : grid0.Coords, EltTy.bits .f32 = 32 ∨ (Rect.block (s := S400000x147) S10000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x300.size a ≤ S400000x300.size a
  hwx0_3 : ∀ i : grid0.Coords, EltTy.bits .f32 = 32 ∨ (Rect.block (s := S400000x300) S10000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x300.size a ≤ S400000x300.size a
  hwx1_0 : ∀ i : grid1.Coords, EltTy.bits .f32 = 32 ∨ (Rect.block (s := S400000x300) S5000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x300.size a ≤ S400000x300.size a
  hwx1_1 : ∀ i : grid1.Coords, EltTy.bits .f32 = 32 ∨ (Rect.block (s := S400000x300) S5000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x300.size a ≤ S400000x300.size a
  hwx1_4 : ∀ i : grid1.Coords, EltTy.bits .f32 = 32 ∨ (Rect.block (s := S400000x300) S5000x300.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x300.size a ≤ S400000x300.size a
  hwx2_0 : ∀ i : grid2.Coords, EltTy.bits .f32 = 32 ∨ (Rect.block (s := S400000x300) S5000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x300.size a ≤ S400000x300.size a
  hwx2_1 : ∀ i : grid2.Coords, EltTy.bits .f32 = 32 ∨ (Rect.block (s := S400000x300) S5000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x300.size a ≤ S400000x300.size a
  hwx2_4 : ∀ i : grid2.Coords, EltTy.bits .f32 = 32 ∨ (Rect.block (s := S400000x300) S5000x300.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x133.size a ≤ S100000x133.size a
  hwx3_0 : ∀ i : grid3.Coords, EltTy.bits .f32 = 32 ∨ (Rect.block (s := S100000x133) S5000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x300.size a ≤ S100000x300.size a
  hwx3_1 : ∀ i : grid3.Coords, EltTy.bits .f32 = 32 ∨ (Rect.block (s := S100000x300) S5000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .f32 = 32 ∨ (Rect.block (s := S133x300) S133x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x300.size a ≤ S100000x300.size a
  hwx3_5 : ∀ i : grid3.Coords, EltTy.bits .f32 = 32 ∨ (Rect.block (s := S100000x300) S5000x300.size (cc3_transform_5 i) (hinb3_5 i)).WholeWords (EltTy.packing .f32)

variable [Facts₀]

def dot_S10000x147_S147x300_S10000x300_1_0_0_1_n_n : DotDims S10000x147 S147x300 S10000x300 where
  lhsContracting := [1]
  rhsContracting := [0]
  lhsNonContracting := [0]
  rhsNonContracting := [1]
  lhsBatch := []
  rhsBatch := []
  wf := dot_S10000x147_S147x300_S10000x300_1_0_0_1_n_n_wf
def gather_S400000_S400000x1_S400000_n_0_n_n_0_1_1 : GatherDims S400000 S400000x1 S400000 where
  offsetDims := []
  collapsedSliceDims := [0]
  operandBatchingDims := []
  startIndicesBatchingDims := []
  startIndexMap := [0]
  indexVectorDim := 1
  sliceSizes := ![1]
  wf := gather_S400000_S400000x1_S400000_n_0_n_n_0_1_1_wf
def scatter_S100000x300_S400000x1_S400000x300_1_0_0_1 : ScatterDims S100000x300 S400000x1 S400000x300 where
  updateWindowDims := [1]
  insertedWindowDims := [0]
  scatterDimsToOperandDims := [0]
  indexVectorDim := 1
  wf := scatter_S100000x300_S400000x1_S400000x300_1_0_0_1_wf
def gather_S100000x300_S400000x1_S400000x300_1_0_n_n_0_1_1300 : GatherDims S100000x300 S400000x1 S400000x300 where
  offsetDims := [1]
  collapsedSliceDims := [0]
  operandBatchingDims := []
  startIndicesBatchingDims := []
  startIndexMap := [0]
  indexVectorDim := 1
  sliceSizes := ![1, 300]
  wf := gather_S100000x300_S400000x1_S400000x300_1_0_n_n_0_1_1300_wf
def gather_S400000x300_S400000x1_S400000x300_1_0_n_n_0_1_1300 : GatherDims S400000x300 S400000x1 S400000x300 where
  offsetDims := [1]
  collapsedSliceDims := [0]
  operandBatchingDims := []
  startIndicesBatchingDims := []
  startIndexMap := [0]
  indexVectorDim := 1
  sliceSizes := ![1, 300]
  wf := gather_S400000x300_S400000x1_S400000x300_1_0_n_n_0_1_1300_wf
def dot_S5000x300_S300x300_S5000x300_1_0_0_1_n_n : DotDims S5000x300 S300x300 S5000x300 where
  lhsContracting := [1]
  rhsContracting := [0]
  lhsNonContracting := [0]
  rhsNonContracting := [1]
  lhsBatch := []
  rhsBatch := []
  wf := dot_S5000x300_S300x300_S5000x300_1_0_0_1_n_n_wf
def dot_S5000x133_S133x300_S5000x300_1_0_0_1_n_n : DotDims S5000x133 S133x300 S5000x300 where
  lhsContracting := [1]
  rhsContracting := [0]
  lhsNonContracting := [0]
  rhsNonContracting := [1]
  lhsBatch := []
  rhsBatch := []
  wf := dot_S5000x133_S133x300_S5000x300_1_0_0_1_n_n_wf

abbrev win0_0 : Pipeline.Window sig grid0 :=
  Pipeline.Window.ofSpec (Memref.whole main_arg1) S10000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S5000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x300.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S5000x300.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg0) S5000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x133 : Shape := ⟨2, ![100000, 133]⟩
abbrev S400000x147 : Shape := ⟨2, ![400000, 147]⟩
abbrev S400000 : Shape := ⟨1, ![400000]⟩
abbrev S300x147 : Shape := ⟨2, ![300, 147]⟩
abbrev S300 : Shape := ⟨1, ![300]⟩
abbrev S300x300 : Shape := ⟨2, ![300, 300]⟩
abbrev S300x433 : Shape := ⟨2, ![300, 433]⟩
abbrev S147x300 : Shape := ⟨2, ![147, 300]⟩
abbrev S400000x300 : Shape := ⟨2, ![400000, 300]⟩
abbrev S1x300 : Shape := ⟨2, ![1, 300]⟩
abbrev S_ : Shape := ⟨0, ![]⟩
abbrev S400000x1 : Shape := ⟨2, ![400000, 1]⟩
abbrev S100000x300 : Shape := ⟨2, ![100000, 300]⟩
abbrev S100000x433 : Shape := ⟨2, ![100000, 433]⟩
abbrev S433x300 : Shape := ⟨2, ![433, 300]⟩

abbrev nBuf : Space → Nat
  | .hbm => 104
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S400000x147, .f32⟩
  | .hbm, ⟨2, _⟩ => ⟨S400000, .i32⟩
  | .hbm, ⟨3, _⟩ => ⟨S400000, .i32⟩
  | .hbm, ⟨4, _⟩ => ⟨S300x147, .f32⟩
  | .hbm, ⟨5, _⟩ => ⟨S300, .f32⟩
  | .hbm, ⟨6, _⟩ => ⟨S300x300, .f32⟩
  | .hbm, ⟨7, _⟩ => ⟨S300, .f32⟩
  | .hbm, ⟨8, _⟩ => ⟨S300x433, .f32⟩
  | .hbm, ⟨9, _⟩ => ⟨S300, .f32⟩
  | .hbm, ⟨10, _⟩ => ⟨S147x300, .f32⟩
  | .hbm, ⟨11, _⟩ => ⟨S400000x300, .f32⟩
  | .hbm, ⟨12, _⟩ => ⟨S1x300, .f32⟩
  | .hbm, ⟨13, _⟩ => ⟨S400000x300, .f32⟩
  | .hbm, ⟨14, _⟩ => ⟨S400000x300, .f32⟩
  | .hbm, ⟨15, _⟩ => ⟨S_, .f32⟩
  | .hbm, ⟨16, _⟩ => ⟨S400000x300, .f32⟩
  | .hbm, ⟨17, _⟩ => ⟨S400000x300, .f32⟩
  | .hbm, ⟨18, _⟩ => ⟨S_, .i32⟩
  | .hbm, ⟨19, _⟩ => ⟨S400000, .i32⟩
  | .hbm, ⟨20, _⟩ => ⟨S400000, .i1⟩
  | .hbm, ⟨21, _⟩ => ⟨S_, .i32⟩
  | .hbm, ⟨22, _⟩ => ⟨S400000, .i32⟩
  | .hbm, ⟨23, _⟩ => ⟨S400000, .i32⟩
  | .hbm, ⟨24, _⟩ => ⟨S400000, .i32⟩
  | .hbm, ⟨25, _⟩ => ⟨S400000x1, .i32⟩
  | .hbm, ⟨26, _⟩ => ⟨S400000, .i32⟩
  | .hbm, ⟨27, _⟩ => ⟨S_, .f32⟩
  | .hbm, ⟨28, _⟩ => ⟨S100000x300, .f32⟩
  | .hbm, ⟨29, _⟩ => ⟨S400000x1, .i32⟩
  | .hbm, ⟨30, _⟩ => ⟨S100000x300, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x300, .f32⟩
  | .hbm, ⟨40, _⟩ => ⟨S_, .i32⟩
  | .hbm, ⟨41, _⟩ => ⟨S400000, .i32⟩
  | .hbm, ⟨42, _⟩ => ⟨S400000, .i1⟩
  | .hbm, ⟨43, _⟩ => ⟨S_, .i32⟩
  | .hbm, ⟨44, _⟩ => ⟨S400000, .i32⟩
  | .hbm, ⟨45, _⟩ => ⟨S400000, .i32⟩
  | .hbm, ⟨46, _⟩ => ⟨S400000, .i32⟩
  | .hbm, ⟨47, _⟩ => ⟨S400000x1, .i32⟩
  | .hbm, ⟨48, _⟩ => ⟨S400000x300, .f32⟩
  | .hbm, ⟨49, _⟩ => ⟨S400000x300, .f32⟩
  | .hbm, ⟨50, _⟩ => ⟨S300x300, .f32⟩
  | .hbm, ⟨51, _⟩ => ⟨S400000x300, .f32⟩
  | .hbm, ⟨52, _⟩ => ⟨S400000x300, .f32⟩
  | .hbm, ⟨53, _⟩ => ⟨S1x300, .f32⟩
  | .hbm, ⟨54, _⟩ => ⟨S400000x300, .f32⟩
  | .hbm, ⟨55, _⟩ => ⟨S400000x300, .f32⟩
  | .hbm, ⟨56, _⟩ => ⟨S_, .f32⟩
  | .hbm, ⟨57, _⟩ => ⟨S400000x300, .f32⟩
  | .hbm, ⟨58, _⟩ => ⟨S400000x300, .f32⟩
  | .hbm, ⟨59, _⟩ => ⟨S_, .f32⟩
  | .hbm, ⟨60, _⟩ => ⟨S100000x300, .f32⟩
  | .hbm, ⟨61, _⟩ => ⟨S400000x1, .i32⟩
  | .hbm, ⟨62, _⟩ => ⟨S100000x300, .f32⟩
  | .hbm, ⟨63, _⟩ => ⟨S_, .i32⟩
  | .hbm, ⟨64, _⟩ => ⟨S400000, .i32⟩
  | .hbm, ⟨65, _⟩ => ⟨S400000, .i1⟩
  | .hbm, ⟨66, _⟩ => ⟨S_, .i32⟩
  | .hbm, ⟨67, _⟩ => ⟨S400000, .i32⟩
  | .hbm, ⟨68, _⟩ => ⟨S400000, .i32⟩
  | .hbm, ⟨69, _⟩ => ⟨S400000, .i32⟩
  | .hbm, ⟨70, _⟩ => ⟨S400000x1, .i32⟩
  | .hbm, ⟨71, _⟩ => ⟨S400000x300, .f32⟩
  | .hbm, ⟨72, _⟩ => ⟨S_, .i32⟩
  | .hbm, ⟨73, _⟩ => ⟨S400000, .i32⟩
  | .hbm, ⟨74, _⟩ => ⟨S400000, .i1⟩
  | .hbm, ⟨75, _⟩ => ⟨S_, .i32⟩
  | .hbm, ⟨76, _⟩ => ⟨S400000, .i32⟩
  | .hbm, ⟨77, _⟩ => ⟨S400000, .i32⟩
  | .hbm, ⟨78, _⟩ => ⟨S400000, .i32⟩
  | .hbm, ⟨79, _⟩ => ⟨S400000x1, .i32⟩
  | .hbm, ⟨80, _⟩ => ⟨S400000x300, .f32⟩
  | .hbm, ⟨81, _⟩ => ⟨S400000x300, .f32⟩
  | .hbm, ⟨82, _⟩ => ⟨S300x300, .f32⟩
  | .hbm, ⟨83, _⟩ => ⟨S400000x300, .f32⟩
  | .hbm, ⟨84, _⟩ => ⟨S400000x300, .f32⟩
  | .hbm, ⟨85, _⟩ => ⟨S1x300, .f32⟩
  | .hbm, ⟨86, _⟩ => ⟨S400000x300, .f32⟩
  | .hbm, ⟨87, _⟩ => ⟨S400000x300, .f32⟩
  | .hbm, ⟨88, _⟩ => ⟨S_, .f32⟩
  | .hbm, ⟨89, _⟩ => ⟨S400000x300, .f32⟩
  | .hbm, ⟨90, _⟩ => ⟨S400000x300, .f32⟩
  | .hbm, ⟨91, _⟩ => ⟨S_, .f32⟩
  | .hbm, ⟨92, _⟩ => ⟨S100000x300, .f32⟩
  | .hbm, ⟨93, _⟩ => ⟨S400000x1, .i32⟩
  | .hbm, ⟨94, _⟩ => ⟨S100000x300, .f32⟩
  | .hbm, ⟨95, _⟩ => ⟨S100000x433, .f32⟩
  | .hbm, ⟨96, _⟩ => ⟨S433x300, .f32⟩
  | .hbm, ⟨97, _⟩ => ⟨S100000x300, .f32⟩
  | .hbm, ⟨98, _⟩ => ⟨S1x300, .f32⟩
  | .hbm, ⟨99, _⟩ => ⟨S100000x300, .f32⟩
  | .hbm, ⟨100, _⟩ => ⟨S100000x300, .f32⟩
  | .hbm, ⟨101, _⟩ => ⟨S_, .f32⟩
  | .hbm, ⟨102, _⟩ => ⟨S100000x300, .f32⟩
  | .hbm, ⟨103, _⟩ => ⟨S100000x300, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_6 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call3_cst : Ref sig .tc := ⟨.hbm, 101, rfl⟩
abbrev main_call3_v0 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  transposes_S300x147_S147x300_1_0 : S300x147.Transposes [1, 0] S147x300
  bcast_S300_S1x300_1 : S300.BroadcastsInDim S1x300 (![1] : Fin 1 → Fin S1x300.rank)
  bcast_S1x300_S400000x300_0_1 : S1x300.BroadcastsInDim S400000x300 (![0, 1] : Fin 2 → Fin S400000x300.rank)
  bcast_S_S400000x300 : S_.BroadcastsInDim S400000x300 (![] : Fin 0 → Fin S400000x300.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S100000x300 : S_.BroadcastsInDim S100000x300 (![] : Fin 0 → Fin S100000x300.rank)
  transposes_S300x300_S300x300_1_0 : S300x300.Transposes [1, 0] S300x300
  concatenates_S100000x133_S100000x300_S100000x433_d1 : Shape.Concatenates [S100000x133, S100000x300] S100000x433 1
  transposes_S300x433_S433x300_1_0 : S300x433.Transposes [1, 0] S433x300
  bcast_S1x300_S100000x300_0_1 : S1x300.BroadcastsInDim S100000x300 (![0, 1] : Fin 2 → Fin S100000x300.rank)
  dot_S400000x147_S147x300_S400000x300_1_0_0_1_n_n_wf : DotDims.WF S400000x147 S147x300 S400000x300 [1] [0] [0] [1] [] []
  gather_S400000_S400000x1_S400000_n_0_n_n_0_1_1_wf : GatherDims.WF S400000 S400000x1 S400000 [] [0] [] [0] [] 1 ![1]
  scatter_S100000x300_S400000x1_S400000x300_1_0_0_1_wf : ScatterDims.WF S100000x300 S400000x1 S400000x300 [1] [0] [0] 1
  gather_S100000x300_S400000x1_S400000x300_1_0_n_n_0_1_1300_wf : GatherDims.WF S100000x300 S400000x1 S400000x300 [1] [0] [] [0] [] 1 ![1, 300]
  gather_S400000x300_S400000x1_S400000x300_1_0_n_n_0_1_1300_wf : GatherDims.WF S400000x300 S400000x1 S400000x300 [1] [0] [] [0] [] 1 ![1, 300]
  dot_S400000x300_S300x300_S400000x300_1_0_0_1_n_n_wf : DotDims.WF S400000x300 S300x300 S400000x300 [1] [0] [0] [1] [] []
  dot_S100000x433_S433x300_S100000x300_1_0_0_1_n_n_wf : DotDims.WF S100000x433 S433x300 S100000x300 [1] [0] [0] [1] [] []

variable [Facts₀]

def dot_S400000x147_S147x300_S400000x300_1_0_0_1_n_n : DotDims S400000x147 S147x300 S400000x300 where
  lhsContracting := [1]
  rhsContracting := [0]
  lhsNonContracting := [0]
  rhsNonContracting := [1]
  lhsBatch := []
  rhsBatch := []
  wf := dot_S400000x147_S147x300_S400000x300_1_0_0_1_n_n_wf
def gather_S400000_S400000x1_S400000_n_0_n_n_0_1_1 : GatherDims S400000 S400000x1 S400000 where
  offsetDims := []
  collapsedSliceDims := [0]
  operandBatchingDims := []
  startIndicesBatchingDims := []
  startIndexMap := [0]
  indexVectorDim := 1
  sliceSizes := ![1]
  wf := gather_S400000_S400000x1_S400000_n_0_n_n_0_1_1_wf
def scatter_S100000x300_S400000x1_S400000x300_1_0_0_1 : ScatterDims S100000x300 S400000x1 S400000x300 where
  updateWindowDims := [1]
  insertedWindowDims := [0]
  scatterDimsToOperandDims := [0]
  indexVectorDim := 1
  wf := scatter_S100000x300_S400000x1_S400000x300_1_0_0_1_wf
def gather_S100000x300_S400000x1_S400000x300_1_0_n_n_0_1_1300 : GatherDims S100000x300 S400000x1 S400000x300 where
  offsetDims := [1]
  collapsedSliceDims := [0]
  operandBatchingDims := []
  startIndicesBatchingDims := []
  startIndexMap := [0]
  indexVectorDim := 1
  sliceSizes := ![1, 300]
  wf := gather_S100000x300_S400000x1_S400000x300_1_0_n_n_0_1_1300_wf
def gather_S400000x300_S400000x1_S400000x300_1_0_n_n_0_1_1300 : GatherDims S400000x300 S400000x1 S400000x300 where
  offsetDims := [1]
  collapsedSliceDims := [0]
  operandBatchingDims := []
  startIndicesBatchingDims := []
  startIndexMap := [0]
  indexVectorDim := 1
  sliceSizes := ![1, 300]
  wf := gather_S400000x300_S400000x1_S400000x300_1_0_n_n_0_1_1300_wf
def dot_S400000x300_S300x300_S400000x300_1_0_0_1_n_n : DotDims S400000x300 S300x300 S400000x300 where
  lhsContracting := [1]
  rhsContracting := [0]
  lhsNonContracting := [0]
  rhsNonContracting := [1]
  lhsBatch := []
  rhsBatch := []
  wf := dot_S400000x300_S300x300_S400000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf

class Facts : Prop extends Facts₀ where

variable [Facts]
-- ==== Proof.LibDenseLayers.lean ====
/-
  The three layers of the message-passing network, each as ONE function of whole arrays on the extended reals.
  A weight matrix enters already transposed, as a [K, N] array, and a bias as a [1, N] row.

    dense    x W b       (p, q) = max ( Σ_k x(p,k)·W(k,q)                      + b(0,q), 0 )
    denseRes h x W b     (p, q) = max ( (h(p,q) + Σ_k x(p,k)·W(k,q))           + b(0,q), 0 )
    dense2   a s Wa Ws b (p, q) = max ( (Σ_k a(p,k)·Wa(k,q) + Σ_k s(p,k)·Ws(k,q)) + b(0,q), 0 )

  Row p of each result depends on row p of the left operands only, so a row tile of the result is the same
  function of the matching row tile of the operands: that is how a tiled kernel and one whole product meet.
  The last lemma joins dense2 with a product over joined columns: a sum over Ka + Ks terms splits into the sum
  of its first Ka and its last Ks terms, in any commutative monoid, so no finiteness is asked of the entries.
-/
import Idealize.ShloMosaic.PureOps.Ideal
import Idealize.ShloMosaic.PureOps.Ideal.Laws
import Idealize.ShloMosaic.Lib.ValueIdx

noncomputable section

open scoped BigOperators

namespace Cert.Mpn

open Idealize.ShloMosaic Idealize.ShloMosaic.ValueIdx

variable {M K Ka Ks N : ℕ}

/-- A projection followed by the rectifier: max (x·W + b, 0). -/
def dense (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max ((∑ k : Fin K, x (ix2 (i 0) k) * w (ix2 k (i 1))) + b (ix2 (0 : Fin 1) (i 1))) 0

theorem dense_apply (x : (⟨2, ![M, K]⟩ : Shape).Idx → EReal) (w : (⟨2, ![K, N]⟩ : Shape).Idx → EReal)
    (b : (⟨2, ![1, N]⟩ : Shape).Idx → EReal) (p : Fin M) (q : Fin N) :
    dense x w b (ix2 p q) = max ((∑ k : Fin K, x (ix2 p k) * w (ix2 k q)) + b (ix2 (0 : Fin 1) q)) 0 := rfl

/-- The residual update: max ((h + x·W) + b, 0). -/
def denseRes (h : (⟨2, ![M, N]⟩ : Shape).Idx → EReal) (x : (⟨2, ![M, K]⟩ : Shape).Idx → EReal)
    (w : (⟨2, ![K, N]⟩ : Shape).Idx → EReal) (b : (⟨2, ![1, N]⟩ : Shape).Idx → EReal) :
    (⟨2, ![M, N]⟩ : Shape).Idx → EReal :=
  fun i => max ((h i + ∑ k : Fin K, x (ix2 (i 0) k) * w (ix2 k (i 1))) + b (ix2 (0 : Fin 1) (i 1))) 0

theorem denseRes_apply (h : (⟨2, ![M, N]⟩ : Shape).Idx → EReal) (x : (⟨2, ![M, K]⟩ : Shape).Idx → EReal)
    (w : (⟨2, ![K, N]⟩ : Shape).Idx → EReal) (b : (⟨2, ![1, N]⟩ : Shape).Idx → EReal) (p : Fin M) (q : Fin N) :
    denseRes h x w b (ix2 p q)
      = max ((h (ix2 p q) + ∑ k : Fin K, x (ix2 p k) * w (ix2 k q)) + b (ix2 (0 : Fin 1) q)) 0 := rfl

/-- Two projections added, then the bias and the rectifier: max ((a·Wa + s·Ws) + b, 0). -/
def dense2 (a : (⟨2, ![M, Ka]⟩ : Shape).Idx → EReal) (s : (⟨2, ![M, Ks]⟩ : Shape).Idx → EReal)
    (wa : (⟨2, ![Ka, N]⟩ : Shape).Idx → EReal) (ws : (⟨2, ![Ks, N]⟩ : Shape).Idx → EReal)
    (b : (⟨2, ![1, N]⟩ : Shape).Idx → EReal) : (⟨2, ![M, N]⟩ : Shape).Idx → EReal :=
  fun i => max (((∑ k : Fin Ka, a (ix2 (i 0) k) * wa (ix2 k (i 1))) + ∑ k : Fin Ks, s (ix2 (i 0) k) * ws (ix2 k (i 1)))
    + b (ix2 (0 : Fin 1) (i 1))) 0

theorem dense2_apply (a : (⟨2, ![M, Ka]⟩ : Shape).Idx → EReal) (s : (⟨2, ![M, Ks]⟩ : Shape).Idx → EReal)
    (wa : (⟨2, ![Ka, N]⟩ : Shape).Idx → EReal) (ws : (⟨2, ![Ks, N]⟩ : Shape).Idx → EReal)
    (b : (⟨2, ![1, N]⟩ : Shape).Idx → EReal) (p : Fin M) (q : Fin N) :
    dense2 a s wa ws b (ix2 p q)
      = max (((∑ k : Fin Ka, a (ix2 p k) * wa (ix2 k q)) + ∑ k : Fin Ks, s (ix2 p k) * ws (ix2 k q))
          + b (ix2 (0 : Fin 1) q)) 0 := rfl

/-- A sum over Ka + Ks terms is the sum of the first Ka plus the sum of the last Ks. -/
theorem sum_split (f : Fin (Ka + Ks) → EReal) :
    ∑ k : Fin (Ka + Ks), f k = (∑ k : Fin Ka, f (Fin.castAdd Ks k)) + ∑ k : Fin Ks, f (Fin.natAdd Ka k) :=
  Fin.sum_univ_add f

end Cert.Mpn

end
-- ==== Proof.Net.lean ====
/-
  The message-passing network as ONE function of the ten argument arrays, on the extended reals.

  Both programs do the irregular part the same way, operation for operation, on the host: an index vector is
  made non-negative (an index below zero counts back from the end) and laid out as a column; each bond's
  destination atom is b2a read at the bond's reverse bond; the bond messages are summed onto their destination
  atoms; and a bond's incoming message is its source atom's sum less the message of its reverse bond. Those
  operations are named here once, over a bond message array H that stays a variable, so that neither side ever has to
  open them. Around them sit the three dense layers of LibDenseLayers.lean:

    H₀ = max (f_bonds·Wiᵀ + bi, 0)
    H₁ = max ((H₀ + incoming H₀ · Whᵀ) + bh, 0)        H₂ = max ((H₁ + incoming H₁ · Whᵀ) + bh, 0)
    A  = max ((f_atoms·Woᵀ[0:133] + atomSum H₂ · Woᵀ[133:433]) + bo, 0)

  and the network returns (A, H₂).
-/
import proofs.«100600_j81458349736430_1_alg».proof.Proof.Gen.KernelIdeal
import proofs.«100600_j81458349736430_1_alg».proof.Proof.LibDenseLayers

noncomputable section

namespace Cert.KernelIdeal.Net

open Idealize.ShloMosaic Cert.KernelIdeal Cert.KernelIdeal.Facts₀ Cert.KernelIdeal.Facts

/-! ## The shared host operations -/

/-- An index vector over n rows made non-negative — a negative index i stands for n + i — and laid out as a column. -/
def wrapCol (n : BitVec 32) (a : (⟨S400000, .i32⟩ : BufTy).Contents (Elt Ideal)) : (⟨S400000x1, .i32⟩ : BufTy).Contents (Elt Ideal) :=
  broadcastInDim S400000x1 ![0] bcast_S400000_S400000x1_0
    (select (cmpi .slt a (broadcastInDim S400000 ![] bcast_S_S400000 (constantI S_ 32 0#32)))
      (addi a (broadcastInDim S400000 ![] bcast_S_S400000 (constantI S_ 32 n))) a)

/-- Each bond's destination atom: b2a read at the bond's reverse bond. -/
def dest (b2a b2revb : (⟨S400000, .i32⟩ : BufTy).Contents (Elt Ideal)) : (⟨S400000, .i32⟩ : BufTy).Contents (Elt Ideal) :=
  Host.gather gather_S400000_S400000x1_S400000_n_0_n_n_0_1_1 b2a (wrapCol 400000#32 b2revb)

/-- The bond messages summed onto their destination atoms, starting from zero. -/
def atomSum (b2a b2revb : (⟨S400000, .i32⟩ : BufTy).Contents (Elt Ideal)) (H : (⟨S400000x300, .f32⟩ : BufTy).Contents (Elt Ideal)) : (⟨S100000x300, .f32⟩ : BufTy).Contents (Elt Ideal) :=
  Host.scatterAdd (F := Ideal) scatter_S100000x300_S400000x1_S400000x300_1_0_0_1
    (broadcastInDim S100000x300 ![] bcast_S_S100000x300 (constant (F := Ideal) S_ .f32 0x00000000#32))
    (broadcastInDim S400000x1 ![0] bcast_S400000_S400000x1_0 (dest b2a b2revb)) H

/-- A bond's incoming message: the sum at its source atom less the message of its reverse bond. -/
def incoming (b2a b2revb : (⟨S400000, .i32⟩ : BufTy).Contents (Elt Ideal)) (H : (⟨S400000x300, .f32⟩ : BufTy).Contents (Elt Ideal)) : (⟨S400000x300, .f32⟩ : BufTy).Contents (Elt Ideal) :=
  subf (F := Ideal) (φ := .f32) (Host.gather gather_S100000x300_S400000x1_S400000x300_1_0_n_n_0_1_1300 (atomSum b2a b2revb H) (wrapCol 100000#32 b2a))
    (Host.gather gather_S400000x300_S400000x1_S400000x300_1_0_n_n_0_1_1300 H (wrapCol 400000#32 b2revb))

/-! ## The weights as the layers take them -/

/-- Wiᵀ. -/
def wiT (w : (⟨S300x147, .f32⟩ : BufTy).Contents (Elt Ideal)) : (⟨S147x300, .f32⟩ : BufTy).Contents (Elt Ideal) := transpose S147x300 [1, 0] w transposes_S300x147_S147x300_1_0
/-- Whᵀ. -/
def whT (w : (⟨S300x300, .f32⟩ : BufTy).Contents (Elt Ideal)) : (⟨S300x300, .f32⟩ : BufTy).Contents (Elt Ideal) := transpose S300x300 [1, 0] w transposes_S300x300_S300x300_1_0
/-- Woᵀ. -/
def woT (w : (⟨S300x433, .f32⟩ : BufTy).Contents (Elt Ideal)) : (⟨S433x300, .f32⟩ : BufTy).Contents (Elt Ideal) := transpose S433x300 [1, 0] w transposes_S300x433_S433x300_1_0
/-- The rows of Woᵀ that meet the atom features. -/
def woAtom (w : (⟨S300x433, .f32⟩ : BufTy).Contents (Elt Ideal)) : (⟨S133x300, .f32⟩ : BufTy).Contents (Elt Ideal) := extractStridedSlice S133x300 ![0, 0] (woT w) slices_S433x300_S133x300_0_0
/-- The rows of Woᵀ that meet the summed messages. -/
def woMsg (w : (⟨S300x433, .f32⟩ : BufTy).Contents (Elt Ideal)) : (⟨S300x300, .f32⟩ : BufTy).Contents (Elt Ideal) := extractStridedSlice S300x300 ![133, 0] (woT w) slices_S433x300_S300x300_133_0
/-- A bias as a one-row matrix. -/
def row (b : (⟨S300, .f32⟩ : BufTy).Contents (Elt Ideal)) : (⟨S1x300, .f32⟩ : BufTy).Contents (Elt Ideal) := shapeCast S1x300 b shapeCasts_S300_S1x300

/-! ## The network -/

/-- The initial bond messages. -/
def bonds0 (fb : (⟨S400000x147, .f32⟩ : BufTy).Contents (Elt Ideal)) (wi : (⟨S300x147, .f32⟩ : BufTy).Contents (Elt Ideal)) (bi : (⟨S300, .f32⟩ : BufTy).Contents (Elt Ideal)) : (⟨S400000x300, .f32⟩ : BufTy).Contents (Elt Ideal) :=
  Mpn.dense fb (wiT wi) (row bi)

/-- One message-passing step. -/
def step (b2a b2revb : (⟨S400000, .i32⟩ : BufTy).Contents (Elt Ideal)) (wh : (⟨S300x300, .f32⟩ : BufTy).Contents (Elt Ideal)) (bh : (⟨S300, .f32⟩ : BufTy).Contents (Elt Ideal))
    (H : (⟨S400000x300, .f32⟩ : BufTy).Contents (Elt Ideal)) : (⟨S400000x300, .f32⟩ : BufTy).Contents (Elt Ideal) :=
  Mpn.denseRes H (incoming b2a b2revb H) (whT wh) (row bh)

/-- The atom read-out. -/
def atoms (fa : (⟨S100000x133, .f32⟩ : BufTy).Contents (Elt Ideal)) (b2a b2revb : (⟨S400000, .i32⟩ : BufTy).Contents (Elt Ideal)) (wo : (⟨S300x433, .f32⟩ : BufTy).Contents (Elt Ideal)) (bo : (⟨S300, .f32⟩ : BufTy).Contents (Elt Ideal))
    (H : (⟨S400000x300, .f32⟩ : BufTy).Contents (Elt Ideal)) : (⟨S100000x300, .f32⟩ : BufTy).Contents (Elt Ideal) :=
  Mpn.dense2 fa (atomSum b2a b2revb H) (woAtom wo) (woMsg wo) (row bo)

end Cert.KernelIdeal.Net

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibPlainDot.lean ====
/-
  General facts about plain matrix products read as extended reals, independent of any program.
  A contraction whose dimension numbers are the plain ones (left columns against right rows, no batch axis) is,
  entry by entry, the textbook sum  Σ_c A(a,c)·B(c,b):  for the host's product, and for a kernel's product
  accumulated into zero, whatever name the dimension record carries.
-/
import proofs.«100600_j81458349736430_1_alg».proof.Proof.LibPlainMatmul

noncomputable section

namespace Idealize.ShloMosaic.LibPlainDot

open Idealize.ShloMosaic Idealize.ShloMosaic.ValueIdx

/-- The host's plain product of an m×k by a k×n matrix at the entry (a, b): Σ_c A(a,c)·B(c,b). -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) := by
  show FloatOps.dotGeneral (DotDims.plain m k n) prec .single A B (ix2 a b) = _
  -- the host's product is the bare sum over the contraction's index set, which has the one coordinate c
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left factor sits at row a, column c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right factor sits at row c, column b
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The same for a dimension record that is the plain one under another name. -/
theorem dotGeneral_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd; exact dotGeneral_plain_apply prec A B a b

/-- A kernel's product into the zero splat, for a dimension record that is the plain one under another name. -/
theorem matmul_zero_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (⟨2, ![m, n]⟩ : Shape) .f32 0x00000000#32) (ix2 a b)
      = ∑ c : Fin k, A (ix2 a c) * B (ix2 c b) := by
  subst hd; exact LibPlainMatmul.matmul_plain_zero_apply prec A B a b

end Idealize.ShloMosaic.LibPlainDot

end
-- ==== Proof.BondProj.lean ====
/-
  The first pallas_call: the bond input projection. Its grid has 40 points; point t reads rows
  10000·t … 10000·t + 9999 of the bond features, the whole transposed weight and the bias row, and writes the
  same rows of the output. Entry (p, q) of a tile is the row p of the tile against the column q of the weight, plus
  the bias at q, clamped below at zero (the narrowing to bfloat16 before the product is the identity on the extended
  reals), so the output array ends as  max (x·W + b, 0)  of the arrays the call was entered with.
-/
import proofs.«100600_j81458349736430_1_alg».proof.Proof.Gen.KernelIdeal.Frame
import proofs.«100600_j81458349736430_1_alg».proof.Proof.LibDenseLayers
import proofs.«100600_j81458349736430_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.BondProj

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

theorem pay_apply (x : Vec Ideal S10000x147 .f32) (w : Vec Ideal S147x300 .f32) (b : Vec Ideal S1x300 .f32)
    (p : Fin 10000) (q : Fin 300) :
    k0_pay1 (F := Ideal) x w b (ix2 p q)
      = max ((∑ k : Fin 147, x (ix2 p k) * w (ix2 k q)) + b (ix2 (0 : Fin 1) q)) 0 := by
  unfold k0_pay1
  rw [maximumf_apply, addf_apply, broadcast_apply, shapeCast_self, shapeCast_self, broadcastTo_1b_ab_apply,
    LibPlainDot.matmul_zero_apply_of_plain dot_S10000x147_S147x300_S10000x300_1_0_0_1_n_n rfl]
  simp only [truncf_apply]
  exact congrArg (max _) Ideal.ofBits_zero_f32

variable (V : (c : Dev nD) → (b : Ref sig .tc) → Buf (Elt Ideal) ((c : Thread nD τ).loc b))

/-- The printed index maps over the grid: at point t the bond features' block and the output's block are block t of
    their arrays' rows; the weight's and the bias's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 40 := lt_of_lt_of_eq t.isLt N_0

/-- Row p of point t's tile is row 10000·t + p of the array. -/
def rowAt (t : Fin cfg0.N) (p : Fin 10000) : Fin 400000 :=
  ⟨t.val * 10000 + p.val, by have := lt_N t; have := p.isLt; omega⟩

/-- The bond features' block at point t, read at (p, k). -/
theorem blk_x (c : Dev nD) (t : Fin cfg0.N) (p : Fin 10000) (k : Fin 147) :
    iblk0 V c 0 t (ix2 p k) = V c main_arg1 (ix2 (rowAt t p) k) := by
  obtain ⟨e0, e1, -⟩ := idx_facts t
  unfold iblk0
  rw [View.read_apply]
  show V c main_arg1 (((cfg0.win 0).blk t).view.emb (ix2 p k)) = V c main_arg1 (ix2 (rowAt t p) k)
  refine congrArg (V c main_arg1) ?_
  funext a; apply Fin.ext
  match a with
  | ⟨0, _⟩ => show win0_0.index t (0 : Fin 2) * 10000 + 1 * p.val = t.val * 10000 + p.val; omega
  | ⟨1, _⟩ => show win0_0.index t (1 : Fin 2) * 147 + 1 * k.val = k.val; omega

/-- The weight's block at any point is the whole weight. -/
theorem blk_w (c : Dev nD) (t : Fin cfg0.N) (k : Fin 147) (q : Fin 300) :
    iblk0 V c 1 t (ix2 k q) = V c main_v0 (ix2 k q) := by
  obtain ⟨-, -, e2, e3, -⟩ := idx_facts t
  unfold iblk0
  rw [View.read_apply]
  show V c main_v0 (((cfg0.win 1).blk t).view.emb (ix2 k q)) = V c main_v0 (ix2 k q)
  refine congrArg (V c main_v0) ?_
  funext a; apply Fin.ext
  match a with
  | ⟨0, _⟩ => show win0_1.index t (0 : Fin 2) * 147 + 1 * k.val = k.val; omega
  | ⟨1, _⟩ => show win0_1.index t (1 : Fin 2) * 300 + 1 * q.val = q.val; omega

/-- The bias's block at any point is the whole bias row. -/
theorem blk_b (c : Dev nD) (t : Fin cfg0.N) (q : Fin 300) :
    iblk0 V c 2 t (ix2 (0 : Fin 1) q) = V c main_v5 (ix2 (0 : Fin 1) q) := by
  obtain ⟨-, -, -, -, e4, e5, -⟩ := idx_facts t
  unfold iblk0
  rw [View.read_apply]
  show V c main_v5 (((cfg0.win 2).blk t).view.emb (ix2 (0 : Fin 1) q)) = V c main_v5 (ix2 (0 : Fin 1) q)
  refine congrArg (V c main_v5) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 300 + 1 * q.val = q.val; omega

/-- Where the output's block at point t sits in the output array. -/
theorem emb_out (t : Fin cfg0.N) (p : Fin 10000) (q : Fin 300) :
    ((cfg0.win 3).blk t).view.emb (ix2 p q) = ix2 (rowAt t p) q := by
  obtain ⟨-, -, -, -, -, -, e6, e7⟩ := idx_facts t
  funext a; apply Fin.ext
  match a with
  | ⟨0, _⟩ => show win0_3.index t (0 : Fin 2) * 10000 + 1 * p.val = t.val * 10000 + p.val; omega
  | ⟨1, _⟩ => show win0_3.index t (1 : Fin 2) * 300 + 1 * q.val = q.val; omega

/-- WHAT POINT t WRITES BACK is block t of the dense layer of the arrays the call was entered with. -/
theorem flushed_eq (c : Dev nD) (t : Fin cfg0.N) :
    (dat0 V c).flushed 3 t = ((cfg0.win 3).blk t).view.read (Elt Ideal)
      (Mpn.dense (V c main_arg1) (V c main_v0) (V c main_v5)) := by
  show (cfg0.win 3).cut (grid0.coords t) ((dat0 V c).after 3 t) = _
  rw [after0_3]
  unfold out0_3
  rw [View.canon_unit_zero hz]
  simp only [View.ld_unit_zero (S := S10000x147) hz, View.ld_unit_zero (S := S147x300) hz, View.ld_unit_zero (S := S1x300) hz]
  funext j
  obtain ⟨p, q, rfl⟩ : ∃ (p : Fin 10000) (q : Fin 300), j = ix2 p q := ⟨j 0, j 1, eq_ix2 j⟩
  refine (pay_apply _ _ _ p q).trans ?_
  rw [View.read_apply, emb_out, Mpn.dense_apply, blk_b]
  simp only [blk_x, blk_w, cast_eq]

/-- An index of the output array lies in point t's block iff, on each axis, it lies in the block's range. -/
theorem mem_blk (t : Fin cfg0.N) (i : S400000x300.Idx) :
    i ∈ ((cfg0.win 3).blk t).view.set ↔ ∀ a : Fin 2, win0_3.index t a * S10000x300.size a ≤ (i a).val
      ∧ (i a).val < win0_3.index t a * S10000x300.size a + S10000x300.size a := by
  show i ∈ ((View.whole main_v8).slice (win0_3.rect t)).set ↔ _
  rw [View.set_slice_whole, Rect.mem_set_unit]
  exact Iff.rfl

/-- The 40 tiles cover the output: row r lies in tile r / 10000. -/
theorem cover (i : S400000x300.Idx) :
    ∃ t : Fin cfg0.N, (cfg0.win 3).flush t = true ∧ i ∈ ((cfg0.win 3).blk t).view.set := by
  have hi0 : (i 0).val < 400000 := (i 0).isLt
  have hi1 : (i 1).val < 300 := (i 1).isLt
  have hN : cfg0.N = 40 := N_0
  let t : Fin cfg0.N := ⟨(i 0).val / 10000, by rw [hN]; omega⟩
  have ht : t.val = (i 0).val / 10000 := rfl
  obtain ⟨-, -, -, -, -, -, e6, e7⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 300 ≤ (i 1).val ∧ (i 1).val < win0_3.index t (1 : Fin 2) * 300 + 300
    omega

/-- THE OUTPUT ARRAY after the call: the dense layer of the arrays the call was entered with. -/
theorem arr (c : Dev nD) :
    (dat0 V c).arrAt 3 cfg0.N = Mpn.dense (V c main_arg1) (V c main_v0) (V c main_v5) :=
  (dat0 V c).arrAt_eq_of_cover 3 _ (fun t _ => flushed_eq V c t) cover

end Cert.KernelIdeal.BondProj

end
-- ==== Proof.Update1.lean ====
/-
  The second pallas_call: a message-passing update. Its grid has 80 points; point t reads rows
  5000·t … 5000·t + 4999 of the bond messages (the first call's output) and of their incoming messages (made on the host from them), the whole transposed
  weight and the bias row, and writes the same rows of the output. Entry (p, q) of a tile is the old message there
  plus the row p of the incoming messages against the column q of the weight, plus the bias at q, clamped below at
  zero, so the output array ends as  max ((h + x·W) + b, 0)  of the arrays the call was entered with.
-/
import proofs.«100600_j81458349736430_1_alg».proof.Proof.Gen.KernelIdeal.Frame
import proofs.«100600_j81458349736430_1_alg».proof.Proof.LibDenseLayers
import proofs.«100600_j81458349736430_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Update1

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- What a tile stores at its entry (p, q): the old message there, plus the row p of the tile of incoming messages
    against the column q of the weight, plus the bias at q, clamped below at zero. -/
theorem pay_apply (h x : Vec Ideal S5000x300 .f32) (w : Vec Ideal S300x300 .f32) (b : Vec Ideal S1x300 .f32)
    (p : Fin 5000) (q : Fin 300) :
    k1_pay1 (F := Ideal) h x w b (ix2 p q)
      = max ((h (ix2 p q) + ∑ k : Fin 300, x (ix2 p k) * w (ix2 k q)) + b (ix2 (0 : Fin 1) q)) 0 := by
  unfold k1_pay1
  rw [maximumf_apply, addf_apply, addf_apply, broadcast_apply, broadcastTo_1b_ab_apply]
  simp only [shapeCast_self]
  rw [LibPlainDot.matmul_zero_apply_of_plain dot_S5000x300_S300x300_S5000x300_1_0_0_1_n_n rfl]
  simp only [truncf_apply]
  exact congrArg (max _) Ideal.ofBits_zero_f32

variable (V : (c : Dev nD) → (b : Ref sig .tc) → Buf (Elt Ideal) ((c : Thread nD τ).loc b))

/-- The printed index maps over the grid: at point t the old messages', the incoming messages' and the output's block
    is block t of their arrays' rows; the weight's and the bias's block is the whole array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_N (t : Fin cfg1.N) : t.val < 80 := lt_of_lt_of_eq t.isLt N_1

/-- Row p of point t's tile is row 5000·t + p of the array. -/
def rowAt (t : Fin cfg1.N) (p : Fin 5000) : Fin 400000 :=
  ⟨t.val * 5000 + p.val, by have := lt_N t; have := p.isLt; omega⟩

/-- The old messages' block at point t, read at (p, q). -/
theorem blk_h (c : Dev nD) (t : Fin cfg1.N) (p : Fin 5000) (q : Fin 300) :
    iblk1 V c 0 t (ix2 p q) = V c main_v8 (ix2 (rowAt t p) q) := by
  obtain ⟨e0, e1, -⟩ := idx_facts t
  unfold iblk1
  rw [View.read_apply]
  show V c main_v8 (((cfg1.win 0).blk t).view.emb (ix2 p q)) = V c main_v8 (ix2 (rowAt t p) q)
  refine congrArg (V c main_v8) ?_
  funext a; apply Fin.ext
  match a with
  | ⟨0, _⟩ => show win1_0.index t (0 : Fin 2) * 5000 + 1 * p.val = t.val * 5000 + p.val; omega
  | ⟨1, _⟩ => show win1_0.index t (1 : Fin 2) * 300 + 1 * q.val = q.val; omega

/-- The incoming messages' block at point t, read at (p, k). -/
theorem blk_x (c : Dev nD) (t : Fin cfg1.N) (p : Fin 5000) (k : Fin 300) :
    iblk1 V c 1 t (ix2 p k) = V c main_v33 (ix2 (rowAt t p) k) := by
  obtain ⟨-, -, e2, e3, -⟩ := idx_facts t
  unfold iblk1
  rw [View.read_apply]
  show V c main_v33 (((cfg1.win 1).blk t).view.emb (ix2 p k)) = V c main_v33 (ix2 (rowAt t p) k)
  refine congrArg (V c main_v33) ?_
  funext a; apply Fin.ext
  match a with
  | ⟨0, _⟩ => show win1_1.index t (0 : Fin 2) * 5000 + 1 * p.val = t.val * 5000 + p.val; omega
  | ⟨1, _⟩ => show win1_1.index t (1 : Fin 2) * 300 + 1 * k.val = k.val; omega

/-- The weight's block at any point is the whole weight. -/
theorem blk_w (c : Dev nD) (t : Fin cfg1.N) (k : Fin 300) (q : Fin 300) :
    iblk1 V c 2 t (ix2 k q) = V c main_v1 (ix2 k q) := by
  obtain ⟨-, -, -, -, e4, e5, -⟩ := idx_facts t
  unfold iblk1
  rw [View.read_apply]
  show V c main_v1 (((cfg1.win 2).blk t).view.emb (ix2 k q)) = V c main_v1 (ix2 k q)
  refine congrArg (V c main_v1) ?_
  funext a; apply Fin.ext
  match a with
  | ⟨0, _⟩ => show win1_2.index t (0 : Fin 2) * 300 + 1 * k.val = k.val; omega
  | ⟨1, _⟩ => show win1_2.index t (1 : Fin 2) * 300 + 1 * q.val = q.val; omega

/-- The bias's block at any point is the whole bias row. -/
theorem blk_b (c : Dev nD) (t : Fin cfg1.N) (q : Fin 300) :
    iblk1 V c 3 t (ix2 (0 : Fin 1) q) = V c main_v6 (ix2 (0 : Fin 1) q) := by
  obtain ⟨-, -, -, -, -, -, e6, e7, -⟩ := idx_facts t
  unfold iblk1
  rw [View.read_apply]
  show V c main_v6 (((cfg1.win 3).blk t).view.emb (ix2 (0 : Fin 1) q)) = V c main_v6 (ix2 (0 : Fin 1) q)
  refine congrArg (V c main_v6) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 300 + 1 * q.val = q.val; omega

/-- Where the output's block at point t sits in the output array. -/
theorem emb_out (t : Fin cfg1.N) (p : Fin 5000) (q : Fin 300) :
    ((cfg1.win 4).blk t).view.emb (ix2 p q) = ix2 (rowAt t p) q := by
  obtain ⟨-, -, -, -, -, -, -, -, e8, e9⟩ := idx_facts t
  funext a; apply Fin.ext
  match a with
  | ⟨0, _⟩ => show win1_4.index t (0 : Fin 2) * 5000 + 1 * p.val = t.val * 5000 + p.val; omega
  | ⟨1, _⟩ => show win1_4.index t (1 : Fin 2) * 300 + 1 * q.val = q.val; omega

/-- WHAT POINT t WRITES BACK is block t of the residual layer of the arrays the call was entered with. -/
theorem flushed_eq (c : Dev nD) (t : Fin cfg1.N) :
    (dat1 V c).flushed 4 t = ((cfg1.win 4).blk t).view.read (Elt Ideal)
      (Mpn.denseRes (V c main_v8) (V c main_v33) (V c main_v1) (V c main_v6)) := by
  show (cfg1.win 4).cut (grid1.coords t) ((dat1 V c).after 4 t) = _
  rw [after1_4]
  unfold out1_4
  rw [View.canon_unit_zero hz]
  simp only [View.ld_unit_zero (S := S5000x300) hz, View.ld_unit_zero (S := S300x300) hz, View.ld_unit_zero (S := S1x300) hz]
  funext j
  obtain ⟨p, q, rfl⟩ : ∃ (p : Fin 5000) (q : Fin 300), j = ix2 p q := ⟨j 0, j 1, eq_ix2 j⟩
  refine (pay_apply _ _ _ _ p q).trans ?_
  rw [View.read_apply, emb_out, Mpn.denseRes_apply, blk_b, blk_h]
  simp only [blk_x, blk_w, cast_eq]

/-- An index of the output array lies in point t's block iff, on each axis, it lies in the block's range. -/
theorem mem_blk (t : Fin cfg1.N) (i : S400000x300.Idx) :
    i ∈ ((cfg1.win 4).blk t).view.set ↔ ∀ a : Fin 2, win1_4.index t a * S5000x300.size a ≤ (i a).val
      ∧ (i a).val < win1_4.index t a * S5000x300.size a + S5000x300.size a := by
  show i ∈ ((View.whole main_v34).slice (win1_4.rect t)).set ↔ _
  rw [View.set_slice_whole, Rect.mem_set_unit]
  exact Iff.rfl

/-- The 80 tiles cover the output: row r lies in tile r / 5000. -/
theorem cover (i : S400000x300.Idx) :
    ∃ t : Fin cfg1.N, (cfg1.win 4).flush t = true ∧ i ∈ ((cfg1.win 4).blk t).view.set := by
  have hi0 : (i 0).val < 400000 := (i 0).isLt
  have hi1 : (i 1).val < 300 := (i 1).isLt
  have hN : cfg1.N = 80 := N_1
  let t : Fin cfg1.N := ⟨(i 0).val / 5000, by rw [hN]; omega⟩
  have ht : t.val = (i 0).val / 5000 := rfl
  obtain ⟨-, -, -, -, -, -, -, -, e8, e9⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 300 ≤ (i 1).val ∧ (i 1).val < win1_4.index t (1 : Fin 2) * 300 + 300
    omega

/-- THE OUTPUT ARRAY after the call: the residual layer of the arrays the call was entered with. -/
theorem arr (c : Dev nD) :
    (dat1 V c).arrAt 4 cfg1.N = Mpn.denseRes (V c main_v8) (V c main_v33) (V c main_v1) (V c main_v6) :=
  (dat1 V c).arrAt_eq_of_cover 4 _ (fun t _ => flushed_eq V c t) cover

end Cert.KernelIdeal.Update1

end
-- ==== Proof.Update2.lean ====
/-
  The third pallas_call: a message-passing update. Its grid has 80 points; point t reads rows
  5000·t … 5000·t + 4999 of the bond messages (the second call's output) and of their incoming messages (made on the host from them), the whole transposed
  weight and the bias row, and writes the same rows of the output. Entry (p, q) of a tile is the old message there
  plus the row p of the incoming messages against the column q of the weight, plus the bias at q, clamped below at
  zero, so the output array ends as  max ((h + x·W) + b, 0)  of the arrays the call was entered with.
-/
import proofs.«100600_j81458349736430_1_alg».proof.Proof.Gen.KernelIdeal.Frame
import proofs.«100600_j81458349736430_1_alg».proof.Proof.LibDenseLayers
import proofs.«100600_j81458349736430_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.Update2

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- What a tile stores at its entry (p, q): the old message there, plus the row p of the tile of incoming messages
    against the column q of the weight, plus the bias at q, clamped below at zero. -/
theorem pay_apply (h x : Vec Ideal S5000x300 .f32) (w : Vec Ideal S300x300 .f32) (b : Vec Ideal S1x300 .f32)
    (p : Fin 5000) (q : Fin 300) :
    k2_pay1 (F := Ideal) h x w b (ix2 p q)
      = max ((h (ix2 p q) + ∑ k : Fin 300, x (ix2 p k) * w (ix2 k q)) + b (ix2 (0 : Fin 1) q)) 0 := by
  unfold k2_pay1
  rw [maximumf_apply, addf_apply, addf_apply, broadcast_apply, broadcastTo_1b_ab_apply]
  simp only [shapeCast_self]
  rw [LibPlainDot.matmul_zero_apply_of_plain dot_S5000x300_S300x300_S5000x300_1_0_0_1_n_n rfl]
  simp only [truncf_apply]
  exact congrArg (max _) Ideal.ofBits_zero_f32

variable (V : (c : Dev nD) → (b : Ref sig .tc) → Buf (Elt Ideal) ((c : Thread nD τ).loc b))

/-- The printed index maps over the grid: at point t the old messages', the incoming messages' and the output's block
    is block t of their arrays' rows; the weight's and the bias's block is the whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt_N (t : Fin cfg2.N) : t.val < 80 := lt_of_lt_of_eq t.isLt N_2

/-- Row p of point t's tile is row 5000·t + p of the array. -/
def rowAt (t : Fin cfg2.N) (p : Fin 5000) : Fin 400000 :=
  ⟨t.val * 5000 + p.val, by have := lt_N t; have := p.isLt; omega⟩

/-- The old messages' block at point t, read at (p, q). -/
theorem blk_h (c : Dev nD) (t : Fin cfg2.N) (p : Fin 5000) (q : Fin 300) :
    iblk2 V c 0 t (ix2 p q) = V c main_v34 (ix2 (rowAt t p) q) := by
  obtain ⟨e0, e1, -⟩ := idx_facts t
  unfold iblk2
  rw [View.read_apply]
  show V c main_v34 (((cfg2.win 0).blk t).view.emb (ix2 p q)) = V c main_v34 (ix2 (rowAt t p) q)
  refine congrArg (V c main_v34) ?_
  funext a; apply Fin.ext
  match a with
  | ⟨0, _⟩ => show win2_0.index t (0 : Fin 2) * 5000 + 1 * p.val = t.val * 5000 + p.val; omega
  | ⟨1, _⟩ => show win2_0.index t (1 : Fin 2) * 300 + 1 * q.val = q.val; omega

/-- The incoming messages' block at point t, read at (p, k). -/
theorem blk_x (c : Dev nD) (t : Fin cfg2.N) (p : Fin 5000) (k : Fin 300) :
    iblk2 V c 1 t (ix2 p k) = V c main_v52 (ix2 (rowAt t p) k) := by
  obtain ⟨-, -, e2, e3, -⟩ := idx_facts t
  unfold iblk2
  rw [View.read_apply]
  show V c main_v52 (((cfg2.win 1).blk t).view.emb (ix2 p k)) = V c main_v52 (ix2 (rowAt t p) k)
  refine congrArg (V c main_v52) ?_
  funext a; apply Fin.ext
  match a with
  | ⟨0, _⟩ => show win2_1.index t (0 : Fin 2) * 5000 + 1 * p.val = t.val * 5000 + p.val; omega
  | ⟨1, _⟩ => show win2_1.index t (1 : Fin 2) * 300 + 1 * k.val = k.val; omega

/-- The weight's block at any point is the whole weight. -/
theorem blk_w (c : Dev nD) (t : Fin cfg2.N) (k : Fin 300) (q : Fin 300) :
    iblk2 V c 2 t (ix2 k q) = V c main_v1 (ix2 k q) := by
  obtain ⟨-, -, -, -, e4, e5, -⟩ := idx_facts t
  unfold iblk2
  rw [View.read_apply]
  show V c main_v1 (((cfg2.win 2).blk t).view.emb (ix2 k q)) = V c main_v1 (ix2 k q)
  refine congrArg (V c main_v1) ?_
  funext a; apply Fin.ext
  match a with
  | ⟨0, _⟩ => show win2_2.index t (0 : Fin 2) * 300 + 1 * k.val = k.val; omega
  | ⟨1, _⟩ => show win2_2.index t (1 : Fin 2) * 300 + 1 * q.val = q.val; omega

/-- The bias's block at any point is the whole bias row. -/
theorem blk_b (c : Dev nD) (t : Fin cfg2.N) (q : Fin 300) :
    iblk2 V c 3 t (ix2 (0 : Fin 1) q) = V c main_v6 (ix2 (0 : Fin 1) q) := by
  obtain ⟨-, -, -, -, -, -, e6, e7, -⟩ := idx_facts t
  unfold iblk2
  rw [View.read_apply]
  show V c main_v6 (((cfg2.win 3).blk t).view.emb (ix2 (0 : Fin 1) q)) = V c main_v6 (ix2 (0 : Fin 1) q)
  refine congrArg (V c main_v6) ?_
  funext a; apply Fin.ext
  match a with
  | ⟨0, _⟩ => show win2_3.index t (0 : Fin 2) * 1 + 1 * (0 : Fin 1).val = (0 : Fin 1).val; omega
  | ⟨1, _⟩ => show win2_3.index t (1 : Fin 2) * 300 + 1 * q.val = q.val; omega

/-- Where the output's block at point t sits in the output array. -/
theorem emb_out (t : Fin cfg2.N) (p : Fin 5000) (q : Fin 300) :
    ((cfg2.win 4).blk t).view.emb (ix2 p q) = ix2 (rowAt t p) q := by
  obtain ⟨-, -, -, -, -, -, -, -, e8, e9⟩ := idx_facts t
  funext a; apply Fin.ext
  match a with
  | ⟨0, _⟩ => show win2_4.index t (0 : Fin 2) * 5000 + 1 * p.val = t.val * 5000 + p.val; omega
  | ⟨1, _⟩ => show win2_4.index t (1 : Fin 2) * 300 + 1 * q.val = q.val; omega

/-- WHAT POINT t WRITES BACK is block t of the residual layer of the arrays the call was entered with. -/
theorem flushed_eq (c : Dev nD) (t : Fin cfg2.N) :
    (dat2 V c).flushed 4 t = ((cfg2.win 4).blk t).view.read (Elt Ideal)
      (Mpn.denseRes (V c main_v34) (V c main_v52) (V c main_v1) (V c main_v6)) := by
  show (cfg2.win 4).cut (grid2.coords t) ((dat2 V c).after 4 t) = _
  rw [after2_4]
  unfold out2_4
  rw [View.canon_unit_zero hz]
  simp only [View.ld_unit_zero (S := S5000x300) hz, View.ld_unit_zero (S := S300x300) hz, View.ld_unit_zero (S := S1x300) hz]
  funext j
  obtain ⟨p, q, rfl⟩ : ∃ (p : Fin 5000) (q : Fin 300), j = ix2 p q := ⟨j 0, j 1, eq_ix2 j⟩
  refine (pay_apply _ _ _ _ p q).trans ?_
  rw [View.read_apply, emb_out, Mpn.denseRes_apply, blk_b, blk_h]
  simp only [blk_x, blk_w, cast_eq]

/-- An index of the output array lies in point t's block iff, on each axis, it lies in the block's range. -/
theorem mem_blk (t : Fin cfg2.N) (i : S400000x300.Idx) :
    i ∈ ((cfg2.win 4).blk t).view.set ↔ ∀ a : Fin 2, win2_4.index t a * S5000x300.size a ≤ (i a).val
      ∧ (i a).val < win2_4.index t a * S5000x300.size a + S5000x300.size a := by
  show i ∈ ((View.whole main_v53).slice (win2_4.rect t)).set ↔ _
  rw [View.set_slice_whole, Rect.mem_set_unit]
  exact Iff.rfl

/-- The 80 tiles cover the output: row r lies in tile r / 5000. -/
theorem cover (i : S400000x300.Idx) :
    ∃ t : Fin cfg2.N, (cfg2.win 4).flush t = true ∧ i ∈ ((cfg2.win 4).blk t).view.set := by
  have hi0 : (i 0).val < 400000 := (i 0).isLt
  have hi1 : (i 1).val < 300 := (i 1).isLt
  have hN : cfg2.N = 80 := N_2
  let t : Fin cfg2.N := ⟨(i 0).val / 5000, by rw [hN]; omega⟩
  have ht : t.val = (i 0).val / 5000 := rfl
  obtain ⟨-, -, -, -, -, -, -, -, e8, e9⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 300 ≤ (i 1).val ∧ (i 1).val < win2_4.index t (1 : Fin 2) * 300 + 300
    omega

/-- THE OUTPUT ARRAY after the call: the residual layer of the arrays the call was entered with. -/
theorem arr (c : Dev nD) :
    (dat2 V c).arrAt 4 cfg2.N = Mpn.denseRes (V c main_v34) (V c main_v52) (V c main_v1) (V c main_v6) :=
  (dat2 V c).arrAt_eq_of_cover 4 _ (fun t _ => flushed_eq V c t) cover

end Cert.KernelIdeal.Update2

end
-- ==== Proof.AtomOut.lean ====
/-
  The fourth pallas_call: the atom read-out. Its grid has 20 points; point t reads rows 5000·t … 5000·t + 4999 of
  the atom features and of the messages summed per atom, the two slices of the transposed weight whole and the bias
  row, and writes the same rows of the output. Entry (p, q) of a tile is the row p of the atom features against the
  column q of their slice of the weight, plus the row p of the summed messages against the column q of theirs, plus
  the bias at q, clamped below at zero, so the output array ends as  max ((a·Wa + s·Ws) + b, 0)  of the arrays the
  call was entered with.
-/
import proofs.«100600_j81458349736430_1_alg».proof.Proof.Gen.KernelIdeal.Frame
import proofs.«100600_j81458349736430_1_alg».proof.Proof.LibDenseLayers
import proofs.«100600_j81458349736430_1_alg».proof.Proof.LibPlainDot
import Idealize.ShloMosaic.Lib.Pipeline.Value
import Idealize.ShloMosaic.Lib.ValueLayout
import Idealize.ShloMosaic.Lib.ValueIdx

set_option maxRecDepth 16384

noncomputable section

namespace Cert.KernelIdeal.AtomOut

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem hz : (![0, 0] : Fin 2 → Nat) = fun _ => 0 := funext fun a => by fin_cases a <;> rfl

/-- What a tile stores at its entry (p, q): the row p of the atom features against the column q of their weight, plus
    the row p of the summed messages against the column q of theirs, plus the bias at q, clamped below at zero. -/
theorem pay_apply (a : Vec Ideal S5000x133 .f32) (s : Vec Ideal S5000x300 .f32) (wa : Vec Ideal S133x300 .f32)
    (ws : Vec Ideal S300x300 .f32) (b : Vec Ideal S1x300 .f32) (p : Fin 5000) (q : Fin 300) :
    k3_pay1 (F := Ideal) a s wa ws b (ix2 p q)
      = max (((∑ k : Fin 133, a (ix2 p k) * wa (ix2 k q)) + ∑ k : Fin 300, s (ix2 p k) * ws (ix2 k q))
          + b (ix2 (0 : Fin 1) q)) 0 := by
  unfold k3_pay1
  rw [maximumf_apply, addf_apply, addf_apply, broadcast_apply, broadcastTo_1b_ab_apply]
  simp only [shapeCast_self]
  rw [LibPlainDot.matmul_zero_apply_of_plain dot_S5000x133_S133x300_S5000x300_1_0_0_1_n_n rfl,
    LibPlainDot.matmul_zero_apply_of_plain dot_S5000x300_S300x300_S5000x300_1_0_0_1_n_n rfl]
  simp only [truncf_apply]
  exact congrArg (max _) Ideal.ofBits_zero_f32

variable (V : (c : Dev nD) → (b : Ref sig .tc) → Buf (Elt Ideal) ((c : Thread nD τ).loc b))

/-- The printed index maps over the grid: at point t the atom features', the summed messages' and the output's block
    is block t of their arrays' rows; the two weights' and the bias's block is the whole array. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt_N (t : Fin cfg3.N) : t.val < 20 := lt_of_lt_of_eq t.isLt N_3

/-- Row p of point t's tile is row 5000·t + p of the array. -/
def rowAt (t : Fin cfg3.N) (p : Fin 5000) : Fin 100000 :=
  ⟨t.val * 5000 + p.val, by have := lt_N t; have := p.isLt; omega⟩

/-- The atom features' block at point t, read at (p, k). -/
theorem blk_a (c : Dev nD) (t : Fin cfg3.N) (p : Fin 5000) (k : Fin 133) :
    iblk3 V c 0 t (ix2 p k) = V c main_arg0 (ix2 (rowAt t p) k) := by
  obtain ⟨e0, e1, -⟩ := idx_facts t
  unfold iblk3
  rw [View.read_apply]
  show V c main_arg0 (((cfg3.win 0).blk t).view.emb (ix2 p k)) = V c main_arg0 (ix2 (rowAt t p) k)
  refine congrArg (V c main_arg0) ?_
  funext a; apply Fin.ext
  match a with
  | ⟨0, _⟩ => show win3_0.index t (0 : Fin 2) * 5000 + 1 * p.val = t.val * 5000 + p.val; omega
  | ⟨1, _⟩ => show win3_0.index t (1 : Fin 2) * 133 + 1 * k.val = k.val; omega

/-- The summed messages' block at point t, read at (p, k). -/
theorem blk_s (c : Dev nD) (t : Fin cfg3.N) (p : Fin 5000) (k : Fin 300) :
    iblk3 V c 1 t (ix2 p k) = V c main_v56 (ix2 (rowAt t p) k) := by
  obtain ⟨-, -, e2, e3, -⟩ := idx_facts t
  unfold iblk3
  rw [View.read_apply]
  show V c main_v56 (((cfg3.win 1).blk t).view.emb (ix2 p k)) = V c main_v56 (ix2 (rowAt t p) k)
  refine congrArg (V c main_v56) ?_
  funext a; apply Fin.ext
  match a with
  | ⟨0, _⟩ => show win3_1.index t (0 : Fin 2) * 5000 + 1 * p.val = t.val * 5000 + p.val; omega
  | ⟨1, _⟩ => show win3_1.index t (1 : Fin 2) * 300 + 1 * k.val = k.val; omega

/-- The atom features' weight: its block at any point is the whole of it. -/
theorem blk_wa (c : Dev nD) (t : Fin cfg3.N) (k : Fin 133) (q : Fin 300) :
    iblk3 V c 2 t (ix2 k q) = V c main_v3 (ix2 k q) := by
  obtain ⟨-, -, -, -, e4, e5, -⟩ := idx_facts t
  unfold iblk3
  rw [View.read_apply]
  show V c main_v3 (((cfg3.win 2).blk t).view.emb (ix2 k q)) = V c main_v3 (ix2 k q)
  refine congrArg (V c main_v3) ?_
  funext a; apply Fin.ext
  match a with
  | ⟨0, _⟩ => show win3_2.index t (0 : Fin 2) * 133 + 1 * k.val = k.val; omega
  | ⟨1, _⟩ => show win3_2.index t (1 : Fin 2) * 300 + 1 * q.val = q.val; omega

/-- The summed messages' weight: its block at any point is the whole of it. -/
theorem blk_ws (c : Dev nD) (t : Fin cfg3.N) (k : Fin 300) (q : Fin 300) :
    iblk3 V c 3 t (ix2 k q) = V c main_v4 (ix2 k q) := by
  obtain ⟨-, -, -, -, -, -, e6, e7, -⟩ := idx_facts t
  unfold iblk3
  rw [View.read_apply]
  show V c main_v4 (((cfg3.win 3).blk t).view.emb (ix2 k q)) = V c main_v4 (ix2 k q)
  refine congrArg (V c main_v4) ?_
  funext a; apply Fin.ext
  match a with
  | ⟨0, _⟩ => show win3_3.index t (0 : Fin 2) * 300 + 1 * k.val = k.val; omega
  | ⟨1, _⟩ => show win3_3.index t (1 : Fin 2) * 300 + 1 * q.val = q.val; omega

/-- The bias's block at any point is the whole bias row. -/
theorem blk_b (c : Dev nD) (t : Fin cfg3.N) (q : Fin 300) :
    iblk3 V c 4 t (ix2 (0 : Fin 1) q) = V c main_v7 (ix2 (0 : Fin 1) q) := by
  obtain ⟨-, -, -, -, -, -, -, -, e8, e9, -⟩ := idx_facts t
  unfold iblk3
  rw [View.read_apply]
  show V c main_v7 (((cfg3.win 4).blk t).view.emb (ix2 (0 : Fin 1) q)) = V c main_v7 (ix2 (0 : Fin 1) q)
  refine congrArg (V c main_v7) ?_
  funext a; apply Fin.ext
  match a with
  | ⟨0, _⟩ => show win3_4.index t (0 : Fin 2) * 1 + 1 * (0 : Fin 1).val = (0 : Fin 1).val; omega
  | ⟨1, _⟩ => show win3_4.index t (1 : Fin 2) * 300 + 1 * q.val = q.val; omega

/-- Where the output's block at point t sits in the output array. -/
theorem emb_out (t : Fin cfg3.N) (p : Fin 5000) (q : Fin 300) :
    ((cfg3.win 5).blk t).view.emb (ix2 p q) = ix2 (rowAt t p) q := by
  obtain ⟨-, -, -, -, -, -, -, -, -, -, e10, e11⟩ := idx_facts t
  funext a; apply Fin.ext
  match a with
  | ⟨0, _⟩ => show win3_5.index t (0 : Fin 2) * 5000 + 1 * p.val = t.val * 5000 + p.val; omega
  | ⟨1, _⟩ => show win3_5.index t (1 : Fin 2) * 300 + 1 * q.val = q.val; omega

/-- WHAT POINT t WRITES BACK is block t of the two-product layer of the arrays the call was entered with. -/
theorem flushed_eq (c : Dev nD) (t : Fin cfg3.N) :
    (dat3 V c).flushed 5 t = ((cfg3.win 5).blk t).view.read (Elt Ideal)
      (Mpn.dense2 (V c main_arg0) (V c main_v56) (V c main_v3) (V c main_v4) (V c main_v7)) := by
  show (cfg3.win 5).cut (grid3.coords t) ((dat3 V c).after 5 t) = _
  rw [after3_5]
  unfold out3_5
  rw [View.canon_unit_zero hz]
  simp only [View.ld_unit_zero (S := S5000x133) hz, View.ld_unit_zero (S := S5000x300) hz, View.ld_unit_zero (S := S133x300) hz,
    View.ld_unit_zero (S := S300x300) hz, View.ld_unit_zero (S := S1x300) hz]
  funext j
  obtain ⟨p, q, rfl⟩ : ∃ (p : Fin 5000) (q : Fin 300), j = ix2 p q := ⟨j 0, j 1, eq_ix2 j⟩
  refine (pay_apply _ _ _ _ _ p q).trans ?_
  rw [View.read_apply, emb_out, Mpn.dense2_apply, blk_b]
  simp only [blk_a, blk_s, blk_wa, blk_ws, cast_eq]

/-- An index of the output array lies in point t's block iff, on each axis, it lies in the block's range. -/
theorem mem_blk (t : Fin cfg3.N) (i : S100000x300.Idx) :
    i ∈ ((cfg3.win 5).blk t).view.set ↔ ∀ a : Fin 2, win3_5.index t a * S5000x300.size a ≤ (i a).val
      ∧ (i a).val < win3_5.index t a * S5000x300.size a + S5000x300.size a := by
  show i ∈ ((View.whole main_v57).slice (win3_5.rect t)).set ↔ _
  rw [View.set_slice_whole, Rect.mem_set_unit]
  exact Iff.rfl

/-- The 20 tiles cover the output: row r lies in tile r / 5000. -/
theorem cover (i : S100000x300.Idx) :
    ∃ t : Fin cfg3.N, (cfg3.win 5).flush t = true ∧ i ∈ ((cfg3.win 5).blk t).view.set := by
  have hi0 : (i 0).val < 100000 := (i 0).isLt
  have hi1 : (i 1).val < 300 := (i 1).isLt
  have hN : cfg3.N = 20 := N_3
  let t : Fin cfg3.N := ⟨(i 0).val / 5000, by rw [hN]; omega⟩
  have ht : t.val = (i 0).val / 5000 := rfl
  obtain ⟨-, -, -, -, -, -, -, -, -, -, e10, e11⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 300 ≤ (i 1).val ∧ (i 1).val < win3_5.index t (1 : Fin 2) * 300 + 300
    omega

/-- THE OUTPUT ARRAY after the call: the two-product layer of the arrays the call was entered with. -/
theorem arr (c : Dev nD) :
    (dat3 V c).arrAt 5 cfg3.N = Mpn.dense2 (V c main_arg0) (V c main_v56) (V c main_v3) (V c main_v4) (V c main_v7) :=
  (dat3 V c).arrAt_eq_of_cover 5 _ (fun t _ => flushed_eq V c t) cover

end Cert.KernelIdeal.AtomOut

end
-- ==== Proof.KernelValue.lean ====
/-
  The idealized kernel's two results as the network of Net.lean of the ten argument arrays.

  @main is eight segments: a stretch of host operations, then a pallas_call, four times over. The buffer contents at
  each boundary are a fold from the launch memory: a stretch applies its operations; a call leaves its output
  array at the layer its module proves (BondProj, Update1, Update2, AtomOut) of the arrays it was entered with, and
  every other buffer as it was. Followed buffer by buffer:

    after stretch 0:  the three transposed weights, the two slices of the third, the three bias rows
    after call 0:     H₀ = bonds0                       after stretch 1:  dest, incoming H₀
    after call 1:     H₁ = step H₀                      after stretch 2:  incoming H₁
    after call 2:     H₂ = step H₁                      after stretch 3:  atomSum H₂
    after call 3:     A  = atoms H₂

  A buffer that no operation of a stretch writes keeps its contents through the stretch, and a buffer that is not
  one of a call's arrays (or is one of its inputs) keeps them through the call; that carries the arguments, the
  weights and dest from where they are made to where they are read.
-/
import proofs.«100600_j81458349736430_1_alg».proof.Proof.KernelRun
import proofs.«100600_j81458349736430_1_alg».proof.Proof.Net
import proofs.«100600_j81458349736430_1_alg».proof.Proof.BondProj
import proofs.«100600_j81458349736430_1_alg».proof.Proof.Update1
import proofs.«100600_j81458349736430_1_alg».proof.Proof.Update2
import proofs.«100600_j81458349736430_1_alg».proof.Proof.AtomOut
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-- No operation of the named stretch writes the buffer … -/
macro "no_writes " ops:ident : tactic => `(tactic|
  exact List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- … so the stretch leaves it as it was. -/
macro "not_written " ops:ident : tactic => `(tactic| exact StableHlo.after_of_forall_not_mem _ _ (by no_writes $ops))

variable (m : (ℓ : Loc nD τ sig) → Buf (Elt Ideal) ℓ) (ρ : Dev nD → PrngReg) (c : Dev nD)

set_option quotPrecheck false

local notation "fAtoms" => m ((c : Thread nD τ).loc main_arg0)
local notation "fBonds" => m ((c : Thread nD τ).loc main_arg1)
local notation "b2a" => m ((c : Thread nD τ).loc main_arg2)
local notation "b2revb" => m ((c : Thread nD τ).loc main_arg3)
local notation "wi" => m ((c : Thread nD τ).loc main_arg4)
local notation "bi" => m ((c : Thread nD τ).loc main_arg5)
local notation "wh" => m ((c : Thread nD τ).loc main_arg6)
local notation "bh" => m ((c : Thread nD τ).loc main_arg7)
local notation "wo" => m ((c : Thread nD τ).loc main_arg8)
local notation "bo" => m ((c : Thread nD τ).loc main_arg9)

/-! ## Stretch 0: the weights laid out for the calls -/

theorem W1_fBonds : W1 m ρ c (Proc.devRef .tc main_arg1) = fBonds :=
  (by not_written hostOps0 : W1 m ρ c (Proc.devRef .tc main_arg1) = W0 m ρ c (Proc.devRef .tc main_arg1)).trans rfl
theorem W1_wiT : W1 m ρ c (Proc.devRef .tc main_v0) = Net.wiT wi := by
  show StableHlo.after hostOps0 (W0 m ρ c) (Proc.devRef .tc main_v0) = _; after_results; rfl
theorem W1_whT : W1 m ρ c (Proc.devRef .tc main_v1) = Net.whT wh := by
  show StableHlo.after hostOps0 (W0 m ρ c) (Proc.devRef .tc main_v1) = _; after_results; rfl
theorem W1_woAtom : W1 m ρ c (Proc.devRef .tc main_v3) = Net.woAtom wo := by
  show StableHlo.after hostOps0 (W0 m ρ c) (Proc.devRef .tc main_v3) = _; after_results; rfl
theorem W1_woMsg : W1 m ρ c (Proc.devRef .tc main_v4) = Net.woMsg wo := by
  show StableHlo.after hostOps0 (W0 m ρ c) (Proc.devRef .tc main_v4) = _; after_results; rfl
theorem W1_rowBi : W1 m ρ c (Proc.devRef .tc main_v5) = Net.row bi := by
  show StableHlo.after hostOps0 (W0 m ρ c) (Proc.devRef .tc main_v5) = _; after_results; rfl
theorem W1_rowBh : W1 m ρ c (Proc.devRef .tc main_v6) = Net.row bh := by
  show StableHlo.after hostOps0 (W0 m ρ c) (Proc.devRef .tc main_v6) = _; after_results; rfl
theorem W1_rowBo : W1 m ρ c (Proc.devRef .tc main_v7) = Net.row bo := by
  show StableHlo.after hostOps0 (W0 m ρ c) (Proc.devRef .tc main_v7) = _; after_results; rfl

/-! ## Call 0: the initial bond messages -/

theorem W2_bonds : W2 m ρ c (Proc.devRef .tc main_v8) = Net.bonds0 fBonds wi bi := by
  refine (W2_arr m ρ c 3).trans ((BondProj.arr (V1 m ρ) c).trans ?_)
  show Mpn.dense (W1 m ρ c (Proc.devRef .tc main_arg1)) (W1 m ρ c (Proc.devRef .tc main_v0)) (W1 m ρ c (Proc.devRef .tc main_v5)) = _
  rw [W1_fBonds, W1_wiT, W1_rowBi]; rfl

theorem W2_b2a : W2 m ρ c (Proc.devRef .tc main_arg2) = b2a :=
  (W2_of_ne m ρ c main_arg2 (by decide)).trans
    ((by not_written hostOps0 : W1 m ρ c (Proc.devRef .tc main_arg2) = W0 m ρ c (Proc.devRef .tc main_arg2)).trans rfl)
theorem W2_b2revb : W2 m ρ c (Proc.devRef .tc main_arg3) = b2revb :=
  (W2_of_ne m ρ c main_arg3 (by decide)).trans
    ((by not_written hostOps0 : W1 m ρ c (Proc.devRef .tc main_arg3) = W0 m ρ c (Proc.devRef .tc main_arg3)).trans rfl)

/-! ## Stretch 1: each bond's destination atom, and the first incoming messages -/

theorem W3_dest : W3 m ρ c (Proc.devRef .tc main_v15) = Net.dest b2a b2revb := by
  show StableHlo.after hostOps1 (W2 m ρ c) (Proc.devRef .tc main_v15) = _
  after_results
  rw [W2_b2a, W2_b2revb]; rfl

set_option maxHeartbeats 4000000 in
theorem W3_incoming : W3 m ρ c (Proc.devRef .tc main_v33) = Net.incoming b2a b2revb (W2 m ρ c (Proc.devRef .tc main_v8)) := by
  show StableHlo.after hostOps1 (W2 m ρ c) (Proc.devRef .tc main_v33) = _
  after_results_simp
  rw [W2_b2a, W2_b2revb]; rfl

theorem W3_bonds : W3 m ρ c (Proc.devRef .tc main_v8) = W2 m ρ c (Proc.devRef .tc main_v8) := by not_written hostOps1
theorem W3_whT : W3 m ρ c (Proc.devRef .tc main_v1) = Net.whT wh :=
  (by not_written hostOps1 : W3 m ρ c (Proc.devRef .tc main_v1) = W2 m ρ c (Proc.devRef .tc main_v1)).trans
    ((W2_of_ne m ρ c main_v1 (by decide)).trans (W1_whT m ρ c))
theorem W3_rowBh : W3 m ρ c (Proc.devRef .tc main_v6) = Net.row bh :=
  (by not_written hostOps1 : W3 m ρ c (Proc.devRef .tc main_v6) = W2 m ρ c (Proc.devRef .tc main_v6)).trans
    ((W2_of_ne m ρ c main_v6 (by decide)).trans (W1_rowBh m ρ c))

/-! ## Call 1: the first update -/

theorem W4_msgs : W4 m ρ c (Proc.devRef .tc main_v34) = Net.step b2a b2revb wh bh (Net.bonds0 fBonds wi bi) := by
  refine (W4_arr m ρ c 4).trans ((Update1.arr (V3 m ρ) c).trans ?_)
  show Mpn.denseRes (W3 m ρ c (Proc.devRef .tc main_v8)) (W3 m ρ c (Proc.devRef .tc main_v33)) (W3 m ρ c (Proc.devRef .tc main_v1)) (W3 m ρ c (Proc.devRef .tc main_v6)) = _
  rw [W3_incoming, W3_bonds, W3_whT, W3_rowBh, W2_bonds]; rfl

theorem W4_b2a : W4 m ρ c (Proc.devRef .tc main_arg2) = b2a :=
  (W4_of_ne m ρ c main_arg2 (by decide)).trans
    ((by not_written hostOps1 : W3 m ρ c (Proc.devRef .tc main_arg2) = W2 m ρ c (Proc.devRef .tc main_arg2)).trans (W2_b2a m ρ c))
theorem W4_b2revb : W4 m ρ c (Proc.devRef .tc main_arg3) = b2revb :=
  (W4_of_ne m ρ c main_arg3 (by decide)).trans
    ((by not_written hostOps1 : W3 m ρ c (Proc.devRef .tc main_arg3) = W2 m ρ c (Proc.devRef .tc main_arg3)).trans (W2_b2revb m ρ c))
theorem W4_dest : W4 m ρ c (Proc.devRef .tc main_v15) = Net.dest b2a b2revb :=
  (W4_of_ne m ρ c main_v15 (by decide)).trans (W3_dest m ρ c)
/-- The weight and the bias row are inputs of the call: it leaves them as it found them. -/
theorem W4_whT : W4 m ρ c (Proc.devRef .tc main_v1) = Net.whT wh :=
  (W4_arr m ρ c 2).trans (((dat1 (V3 m ρ) c).arrAt_in 2 rfl _).trans ((A_eq1 (V3 m ρ) c 2).trans (W3_whT m ρ c)))
theorem W4_rowBh : W4 m ρ c (Proc.devRef .tc main_v6) = Net.row bh :=
  (W4_arr m ρ c 3).trans (((dat1 (V3 m ρ) c).arrAt_in 3 rfl _).trans ((A_eq1 (V3 m ρ) c 3).trans (W3_rowBh m ρ c)))

/-! ## Stretch 2: the second incoming messages -/

set_option maxHeartbeats 4000000 in
theorem W5_incoming : W5 m ρ c (Proc.devRef .tc main_v52) = Net.incoming b2a b2revb (W4 m ρ c (Proc.devRef .tc main_v34)) := by
  show StableHlo.after hostOps2 (W4 m ρ c) (Proc.devRef .tc main_v52) = _
  after_results_simp
  rw [W4_b2a, W4_b2revb, W4_dest]; rfl

theorem W5_msgs : W5 m ρ c (Proc.devRef .tc main_v34) = W4 m ρ c (Proc.devRef .tc main_v34) := by not_written hostOps2
theorem W5_whT : W5 m ρ c (Proc.devRef .tc main_v1) = Net.whT wh :=
  (by not_written hostOps2 : W5 m ρ c (Proc.devRef .tc main_v1) = W4 m ρ c (Proc.devRef .tc main_v1)).trans (W4_whT m ρ c)
theorem W5_rowBh : W5 m ρ c (Proc.devRef .tc main_v6) = Net.row bh :=
  (by not_written hostOps2 : W5 m ρ c (Proc.devRef .tc main_v6) = W4 m ρ c (Proc.devRef .tc main_v6)).trans (W4_rowBh m ρ c)

/-! ## Call 2: the second update -/

theorem W6_msgs : W6 m ρ c (Proc.devRef .tc main_v53) = Net.step b2a b2revb wh bh (Net.step b2a b2revb wh bh (Net.bonds0 fBonds wi bi)) := by
  refine (W6_arr m ρ c 4).trans ((Update2.arr (V5 m ρ) c).trans ?_)
  show Mpn.denseRes (W5 m ρ c (Proc.devRef .tc main_v34)) (W5 m ρ c (Proc.devRef .tc main_v52)) (W5 m ρ c (Proc.devRef .tc main_v1)) (W5 m ρ c (Proc.devRef .tc main_v6)) = _
  rw [W5_incoming, W5_msgs, W5_whT, W5_rowBh, W4_msgs]; rfl

theorem W6_dest : W6 m ρ c (Proc.devRef .tc main_v15) = Net.dest b2a b2revb :=
  (W6_of_ne m ρ c main_v15 (by decide)).trans
    ((by not_written hostOps2 : W5 m ρ c (Proc.devRef .tc main_v15) = W4 m ρ c (Proc.devRef .tc main_v15)).trans (W4_dest m ρ c))

/-! ## Stretch 3 and call 3: the messages summed per atom, and the atom read-out -/

/-- A buffer that no stretch after the first writes, and that is no array of the first three calls, is still as the
    first stretch left it when the fourth call is entered. -/
theorem W7_of_early (b : Ref sig .tc) (h0 : ∀ w, Pipeline.arrRef spec0 w ≠ b) (h1 : ∀ w, Pipeline.arrRef spec1 w ≠ b)
    (h2 : ∀ w, Pipeline.arrRef spec2 w ≠ b)
    (n1 : ∀ op ∈ (hostOps1 : List (HloOp τ sig (Elt Ideal))), Proc.devRef .tc b ∉ op.writes)
    (n2 : ∀ op ∈ (hostOps2 : List (HloOp τ sig (Elt Ideal))), Proc.devRef .tc b ∉ op.writes)
    (n3 : ∀ op ∈ (hostOps3 : List (HloOp τ sig (Elt Ideal))), Proc.devRef .tc b ∉ op.writes) :
    W7 m ρ c (Proc.devRef .tc b) = W1 m ρ c (Proc.devRef .tc b) :=
  calc W7 m ρ c (Proc.devRef .tc b)
    _ = W6 m ρ c (Proc.devRef .tc b) := StableHlo.after_of_forall_not_mem _ _ n3
    _ = W5 m ρ c (Proc.devRef .tc b) := W6_of_ne m ρ c b h2
    _ = W4 m ρ c (Proc.devRef .tc b) := StableHlo.after_of_forall_not_mem _ _ n2
    _ = W3 m ρ c (Proc.devRef .tc b) := W4_of_ne m ρ c b h1
    _ = W2 m ρ c (Proc.devRef .tc b) := StableHlo.after_of_forall_not_mem _ _ n1
    _ = W1 m ρ c (Proc.devRef .tc b) := W2_of_ne m ρ c b h0

theorem W7_fAtoms : W7 m ρ c (Proc.devRef .tc main_arg0) = fAtoms :=
  (W7_of_early m ρ c main_arg0 (by decide) (by decide) (by decide) (by no_writes hostOps1) (by no_writes hostOps2) (by no_writes hostOps3)).trans
    ((by not_written hostOps0 : W1 m ρ c (Proc.devRef .tc main_arg0) = W0 m ρ c (Proc.devRef .tc main_arg0)).trans rfl)
theorem W7_woAtom : W7 m ρ c (Proc.devRef .tc main_v3) = Net.woAtom wo :=
  (W7_of_early m ρ c main_v3 (by decide) (by decide) (by decide) (by no_writes hostOps1) (by no_writes hostOps2) (by no_writes hostOps3)).trans
    (W1_woAtom m ρ c)
theorem W7_woMsg : W7 m ρ c (Proc.devRef .tc main_v4) = Net.woMsg wo :=
  (W7_of_early m ρ c main_v4 (by decide) (by decide) (by decide) (by no_writes hostOps1) (by no_writes hostOps2) (by no_writes hostOps3)).trans
    (W1_woMsg m ρ c)
theorem W7_rowBo : W7 m ρ c (Proc.devRef .tc main_v7) = Net.row bo :=
  (W7_of_early m ρ c main_v7 (by decide) (by decide) (by decide) (by no_writes hostOps1) (by no_writes hostOps2) (by no_writes hostOps3)).trans
    (W1_rowBo m ρ c)

theorem W7_atomSum : W7 m ρ c (Proc.devRef .tc main_v56) = Net.atomSum b2a b2revb (W6 m ρ c (Proc.devRef .tc main_v53)) := by
  show StableHlo.after hostOps3 (W6 m ρ c) (Proc.devRef .tc main_v56) = _
  after_results
  rw [W6_dest]; rfl
theorem W7_msgs : W7 m ρ c (Proc.devRef .tc main_v53) = W6 m ρ c (Proc.devRef .tc main_v53) := by not_written hostOps3

/-- The first result: the atom read-out of the messages after two updates. -/
theorem W8_atoms : W8 m ρ c (Proc.devRef .tc main_v57) = Net.atoms fAtoms b2a b2revb wo bo (Net.step b2a b2revb wh bh (Net.step b2a b2revb wh bh (Net.bonds0 fBonds wi bi))) := by
  refine (W8_arr m ρ c 5).trans ((AtomOut.arr (V7 m ρ) c).trans ?_)
  show Mpn.dense2 (W7 m ρ c (Proc.devRef .tc main_arg0)) (W7 m ρ c (Proc.devRef .tc main_v56)) (W7 m ρ c (Proc.devRef .tc main_v3)) (W7 m ρ c (Proc.devRef .tc main_v4)) (W7 m ρ c (Proc.devRef .tc main_v7)) = _
  rw [W7_atomSum, W7_fAtoms, W7_woAtom, W7_woMsg, W7_rowBo, W6_msgs]; rfl

/-- The second result: the messages after two updates (the last call does not touch them). -/
theorem W8_msgs : W8 m ρ c (Proc.devRef .tc main_v53) = Net.step b2a b2revb wh bh (Net.step b2a b2revb wh bh (Net.bonds0 fBonds wi bi)) :=
  (W8_of_ne m ρ c main_v53 (by decide)).trans ((W7_msgs m ρ c).trans (W6_msgs m ρ c))

end Cert.KernelIdeal.Chain

end
-- ==== Proof.LibHostDense.lean ====
/-
  The three layers as the host writes them: one whole matrix product, a bias already spread over the rows, and
  the maximum with an array of zeros. Entry by entry each is the layer of LibDenseLayers.lean:

    max (x·W + B, Z)             is dense     when B(p,q) = b(0,q) and Z = 0
    max ((h + x·W) + B, Z)       is denseRes
    max (C·W + B, Z)             is dense2    when C's rows are a's rows followed by s's, and W's rows are Wa's
                                              followed by Ws's: the sum over the Ka + Ks joined columns splits into
                                              the sum over the first Ka and the sum over the last Ks.
-/
import proofs.«100600_j81458349736430_1_alg».proof.Proof.LibDenseLayers
import proofs.«100600_j81458349736430_1_alg».proof.Proof.LibPlainDot

noncomputable section

open scoped BigOperators

namespace Cert.Mpn

open Idealize.ShloMosaic Idealize.ShloMosaic.ValueIdx

variable {M K Ka Ks N : ℕ}

/-- The host's projection layer. -/
theorem host_dense (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (B Z : FVec Ideal ⟨2, ![M, N]⟩ .f32)
    (b : (⟨2, ![1, N]⟩ : Shape).Idx → EReal) (hB : ∀ (p : Fin M) (q : Fin N), B (ix2 p q) = b (ix2 (0 : Fin 1) q))
    (hZ : ∀ i, Z i = 0) :
    maximumf (addf (Host.dotGeneral d none x w) B) Z = dense x w b := by
  funext i
  obtain ⟨p, q, rfl⟩ : ∃ (p : Fin M) (q : Fin N), i = ix2 p q := ⟨i 0, i 1, eq_ix2 i⟩
  rw [maximumf_apply, addf_apply, LibPlainDot.dotGeneral_apply_of_plain d hd, hB, hZ, dense_apply]

/-- The host's residual layer. -/
theorem host_denseRes (d : DotDims ⟨2, ![M, K]⟩ ⟨2, ![K, N]⟩ ⟨2, ![M, N]⟩) (hd : d = DotDims.plain M K N)
    (h : FVec Ideal ⟨2, ![M, N]⟩ .f32) (x : FVec Ideal ⟨2, ![M, K]⟩ .f32) (w : FVec Ideal ⟨2, ![K, N]⟩ .f32)
    (B Z : FVec Ideal ⟨2, ![M, N]⟩ .f32)
    (b : (⟨2, ![1, N]⟩ : Shape).Idx → EReal) (hB : ∀ (p : Fin M) (q : Fin N), B (ix2 p q) = b (ix2 (0 : Fin 1) q))
    (hZ : ∀ i, Z i = 0) :
    maximumf (addf (addf h (Host.dotGeneral d none x w)) B) Z = denseRes h x w b := by
  funext i
  obtain ⟨p, q, rfl⟩ : ∃ (p : Fin M) (q : Fin N), i = ix2 p q := ⟨i 0, i 1, eq_ix2 i⟩
  rw [maximumf_apply, addf_apply, addf_apply, LibPlainDot.dotGeneral_apply_of_plain d hd, hB, hZ, denseRes_apply]

/-- The host's read-out layer over joined columns. -/
theorem host_dense2 (d : DotDims ⟨2, ![M, Ka + Ks]⟩ ⟨2, ![Ka + Ks, N]⟩ ⟨2, ![M, N]⟩) (hd : d = DotDims.plain M (Ka + Ks) N)
    (C : FVec Ideal ⟨2, ![M, Ka + Ks]⟩ .f32) (W : FVec Ideal ⟨2, ![Ka + Ks, N]⟩ .f32) (B Z : FVec Ideal ⟨2, ![M, N]⟩ .f32)
    (a : (⟨2, ![M, Ka]⟩ : Shape).Idx → EReal) (s : (⟨2, ![M, Ks]⟩ : Shape).Idx → EReal)
    (wa : (⟨2, ![Ka, N]⟩ : Shape).Idx → EReal) (ws : (⟨2, ![Ks, N]⟩ : Shape).Idx → EReal)
    (b : (⟨2, ![1, N]⟩ : Shape).Idx → EReal)
    (hCa : ∀ (p : Fin M) (k : Fin Ka), C (ix2 p (Fin.castAdd Ks k)) = a (ix2 p k))
    (hCs : ∀ (p : Fin M) (k : Fin Ks), C (ix2 p (Fin.natAdd Ka k)) = s (ix2 p k))
    (hWa : ∀ (k : Fin Ka) (q : Fin N), W (ix2 (Fin.castAdd Ks k) q) = wa (ix2 k q))
    (hWs : ∀ (k : Fin Ks) (q : Fin N), W (ix2 (Fin.natAdd Ka k) q) = ws (ix2 k q))
    (hB : ∀ (p : Fin M) (q : Fin N), B (ix2 p q) = b (ix2 (0 : Fin 1) q)) (hZ : ∀ i, Z i = 0) :
    maximumf (addf (Host.dotGeneral d none C W) B) Z = dense2 a s wa ws b := by
  funext i
  obtain ⟨p, q, rfl⟩ : ∃ (p : Fin M) (q : Fin N), i = ix2 p q := ⟨i 0, i 1, eq_ix2 i⟩
  rw [maximumf_apply, addf_apply, LibPlainDot.dotGeneral_apply_of_plain d hd, hB, hZ, dense2_apply, sum_split]
  simp only [hCa, hCs, hWa, hWs]

end Cert.Mpn

end
-- ==== Proof.RefStages.lean ====
/-
  The reference's side: its stages are the same network.

  The reference computes each layer with one whole matrix product on the host, adds the bias spread over the rows
  and takes the maximum with an array of zeros; LibHostDense.lean reads those as the layers dense, denseRes and dense2.
  Its last layer multiplies the atom features joined with the summed messages, column-wise, by the whole transposed
  weight: the rows of that weight split into the slice that meets the atom features and the slice that meets the
  summed messages, which is how the kernel's two products arise. Between the layers it runs the very operations
  Net.lean names (dest, atomSum, incoming), so there the two sides are one term.
-/
import proofs.«100600_j81458349736430_1_alg».proof.Proof.Gen.ReferenceIdeal.Run
import proofs.«100600_j81458349736430_1_alg».proof.Proof.Gen.ReferenceIdeal.Read
import proofs.«100600_j81458349736430_1_alg».proof.Proof.Net
import proofs.«100600_j81458349736430_1_alg».proof.Proof.LibHostDense
import Idealize.ShloMosaic.Lib.Pipeline.Value
import Idealize.ShloMosaic.Lib.ValueLayout

noncomputable section

namespace Cert.ReferenceIdeal.Stages

open Idealize.ShloMosaic Idealize.ShloMosaic.ValueIdx
open Cert.ReferenceIdeal Cert.ReferenceIdeal.Facts₀ Cert.ReferenceIdeal.Facts Cert.ReferenceIdeal.Read Cert.KernelIdeal.Net

variable (x0 : (⟨S100000x133, .f32⟩ : BufTy).Contents (Elt Ideal)) (x1 : (⟨S400000x147, .f32⟩ : BufTy).Contents (Elt Ideal)) (x2 x3 : (⟨S400000, .i32⟩ : BufTy).Contents (Elt Ideal))
  (x4 : (⟨S300x147, .f32⟩ : BufTy).Contents (Elt Ideal)) (x5 : (⟨S300, .f32⟩ : BufTy).Contents (Elt Ideal)) (x6 : (⟨S300x300, .f32⟩ : BufTy).Contents (Elt Ideal)) (x7 : (⟨S300, .f32⟩ : BufTy).Contents (Elt Ideal))
  (x8 : (⟨S300x433, .f32⟩ : BufTy).Contents (Elt Ideal)) (x9 : (⟨S300, .f32⟩ : BufTy).Contents (Elt Ideal))

/-! ## The arrays of zeros the rectifier compares with -/

theorem zero_call0 (i : S400000x300.Idx) : val_main_call0_v0 (F := Ideal) i = 0 := by
  rw [val_main_call0_v0_apply, val_main_call0_cst_apply]; exact Ideal.ofBits_zero_f32
theorem zero_call1 (i : S400000x300.Idx) : val_main_call1_v0 (F := Ideal) i = 0 := by
  rw [val_main_call1_v0_apply, val_main_call1_cst_apply]; exact Ideal.ofBits_zero_f32
theorem zero_call2 (i : S400000x300.Idx) : val_main_call2_v0 (F := Ideal) i = 0 := by
  rw [val_main_call2_v0_apply, val_main_call2_cst_apply]; exact Ideal.ofBits_zero_f32
theorem zero_call3 (i : S100000x300.Idx) : val_main_call3_v0 (F := Ideal) i = 0 := by
  rw [val_main_call3_v0_apply, val_main_call3_cst_apply]; exact Ideal.ofBits_zero_f32

/-! ## A bias spread over the rows reads, in every row, the bias row -/

theorem bias_v3 (p : Fin 400000) (q : Fin 300) : val_main_v3 (F := Ideal) x5 (ix2 p q) = row x5 (ix2 (0 : Fin 1) q) := by
  rw [val_main_v3_apply, val_main_v2_apply]
  have e : idx_main_v2 (idx_main_v3 (ix2 p q)) = ix1 q := funext fun a => match a with | ⟨0, _⟩ => rfl
  rw [e]; exact (shapeCast_a_1a_apply x5 _ 0 q).symm
theorem bias_v35 (p : Fin 400000) (q : Fin 300) : val_main_v35 (F := Ideal) x7 (ix2 p q) = row x7 (ix2 (0 : Fin 1) q) := by
  rw [val_main_v35_apply, val_main_v34_apply]
  have e : idx_main_v34 (idx_main_v35 (ix2 p q)) = ix1 q := funext fun a => match a with | ⟨0, _⟩ => rfl
  rw [e]; exact (shapeCast_a_1a_apply x7 _ 0 q).symm
theorem bias_v60 (p : Fin 400000) (q : Fin 300) : val_main_v60 (F := Ideal) x7 (ix2 p q) = row x7 (ix2 (0 : Fin 1) q) := by
  rw [val_main_v60_apply, val_main_v59_apply]
  have e : idx_main_v59 (idx_main_v60 (ix2 p q)) = ix1 q := funext fun a => match a with | ⟨0, _⟩ => rfl
  rw [e]; exact (shapeCast_a_1a_apply x7 _ 0 q).symm
theorem bias_v70 (p : Fin 100000) (q : Fin 300) : val_main_v70 (F := Ideal) x9 (ix2 p q) = row x9 (ix2 (0 : Fin 1) q) := by
  rw [val_main_v70_apply, val_main_v69_apply]
  have e : idx_main_v69 (idx_main_v70 (ix2 p q)) = ix1 q := funext fun a => match a with | ⟨0, _⟩ => rfl
  rw [e]; exact (shapeCast_a_1a_apply x9 _ 0 q).symm

/-! ## Between the layers: the shared host operations -/

theorem incoming0 : val_main_v30 (F := Ideal) x1 x2 x3 x4 x5 = incoming x2 x3 (val_main_v5 (F := Ideal) x1 x4 x5) := by
  unfold val_main_v30 val_main_v22 val_main_v29 val_main_v15
  generalize val_main_v5 (F := Ideal) x1 x4 x5 = H
  rfl
theorem incoming1 : val_main_v55 (F := Ideal) x1 x2 x3 x4 x5 x6 x7 = incoming x2 x3 (val_main_v37 (F := Ideal) x1 x2 x3 x4 x5 x6 x7) := by
  unfold val_main_v55 val_main_v47 val_main_v54 val_main_v40
  generalize val_main_v37 (F := Ideal) x1 x2 x3 x4 x5 x6 x7 = H
  rfl
theorem atomSum2 : val_main_v65 (F := Ideal) x1 x2 x3 x4 x5 x6 x7 = atomSum x2 x3 (val_main_v62 (F := Ideal) x1 x2 x3 x4 x5 x6 x7) := by
  unfold val_main_v65
  generalize val_main_v62 (F := Ideal) x1 x2 x3 x4 x5 x6 x7 = H
  rfl

/-! ## The layers -/

theorem bonds0_eq : val_main_v5 (F := Ideal) x1 x4 x5 = bonds0 x1 x4 x5 := by
  unfold val_main_v5 val_main_v4 val_main_v1
  exact Mpn.host_dense dot_S400000x147_S147x300_S400000x300_1_0_0_1_n_n rfl x1 (val_main_v0 (F := Ideal) x4)
    (val_main_v3 (F := Ideal) x5) (val_main_call0_v0 (F := Ideal)) (row x5) (bias_v3 x5) zero_call0

theorem step1_eq : val_main_v37 (F := Ideal) x1 x2 x3 x4 x5 x6 x7 = step x2 x3 x6 x7 (val_main_v5 (F := Ideal) x1 x4 x5) := by
  unfold val_main_v37 val_main_v36 val_main_v33 val_main_v32
  rw [incoming0]
  exact Mpn.host_denseRes dot_S400000x300_S300x300_S400000x300_1_0_0_1_n_n rfl (val_main_v5 (F := Ideal) x1 x4 x5)
    (incoming x2 x3 (val_main_v5 (F := Ideal) x1 x4 x5)) (val_main_v31 (F := Ideal) x6) (val_main_v35 (F := Ideal) x7)
    (val_main_call1_v0 (F := Ideal)) (row x7) (bias_v35 x7) zero_call1

theorem step2_eq : val_main_v62 (F := Ideal) x1 x2 x3 x4 x5 x6 x7 = step x2 x3 x6 x7 (val_main_v37 (F := Ideal) x1 x2 x3 x4 x5 x6 x7) := by
  unfold val_main_v62 val_main_v61 val_main_v58 val_main_v57
  rw [incoming1]
  exact Mpn.host_denseRes dot_S400000x300_S300x300_S400000x300_1_0_0_1_n_n rfl (val_main_v37 (F := Ideal) x1 x2 x3 x4 x5 x6 x7)
    (incoming x2 x3 (val_main_v37 (F := Ideal) x1 x2 x3 x4 x5 x6 x7)) (val_main_v56 (F := Ideal) x6) (val_main_v60 (F := Ideal) x7)
    (val_main_call2_v0 (F := Ideal)) (row x7) (bias_v60 x7) zero_call2

/-- The atom features joined with the summed messages: the first 133 columns are the atom features … -/
theorem join_left (S : (⟨S100000x300, .f32⟩ : BufTy).Contents (Elt Ideal)) (p : Fin 100000) (k : Fin 133) :
    concatenate S100000x433 1 [⟨S100000x133, x0⟩, ⟨S100000x300, S⟩] concatenates_S100000x133_S100000x300_S100000x433_d1
      (ix2 p (Fin.castAdd 300 k)) = x0 (ix2 p k) :=
  concatenate_pair_apply_left 1 x0 S concatenates_S100000x133_S100000x300_S100000x433_d1 (ix2 p (Fin.castAdd 300 k)) rfl (ix2 p k)
    (fun b => match b with | ⟨0, _⟩ => rfl | ⟨1, _⟩ => rfl)
/-- … and the last 300 the summed messages. -/
theorem join_right (S : (⟨S100000x300, .f32⟩ : BufTy).Contents (Elt Ideal)) (p : Fin 100000) (k : Fin 300) :
    concatenate S100000x433 1 [⟨S100000x133, x0⟩, ⟨S100000x300, S⟩] concatenates_S100000x133_S100000x300_S100000x433_d1
      (ix2 p (Fin.natAdd 133 k)) = S (ix2 p k) :=
  concatenate_pair_apply_right 1 x0 S concatenates_S100000x133_S100000x300_S100000x433_d1 (ix2 p (Fin.natAdd 133 k)) rfl rfl (ix2 p k)
    (fun b hb => match b with | ⟨0, _⟩ => rfl | ⟨1, _⟩ => absurd rfl hb)
    (Nat.add_comm _ _)

/-- The first 133 rows of the transposed weight are the slice the atom features meet … -/
theorem weight_atom (k : Fin 133) (q : Fin 300) :
    val_main_v67 (F := Ideal) x8 (ix2 (Fin.castAdd 300 k) q) = woAtom x8 (ix2 k q) :=
  (slice2_axis0_apply 0 (woT x8) _ k q (Fin.castAdd 300 k) (Nat.zero_add _).symm).symm
/-- … and its last 300 rows the slice the summed messages meet. -/
theorem weight_msg (k : Fin 300) (q : Fin 300) :
    val_main_v67 (F := Ideal) x8 (ix2 (Fin.natAdd 133 k) q) = woMsg x8 (ix2 k q) :=
  (slice2_axis0_apply 133 (woT x8) _ k q (Fin.natAdd 133 k) rfl).symm

theorem atoms_eq : val_main_v72 (F := Ideal) x0 x1 x2 x3 x4 x5 x6 x7 x8 x9
    = atoms x0 x2 x3 x8 x9 (val_main_v62 (F := Ideal) x1 x2 x3 x4 x5 x6 x7) := by
  unfold val_main_v72 val_main_v71 val_main_v68 val_main_v66
  rw [atomSum2]
  generalize val_main_v62 (F := Ideal) x1 x2 x3 x4 x5 x6 x7 = H
  exact Mpn.host_dense2 (Ka := 133) (Ks := 300) dot_S100000x433_S433x300_S100000x300_1_0_0_1_n_n rfl _
    (val_main_v67 (F := Ideal) x8) (val_main_v70 (F := Ideal) x9) (val_main_call3_v0 (F := Ideal))
    x0 (atomSum x2 x3 H) (woAtom x8) (woMsg x8) (row x9)
    (join_left x0 (atomSum x2 x3 H)) (join_right x0 (atomSum x2 x3 H)) (weight_atom x8) (weight_msg x8) (bias_v70 x9) zero_call3

/-! ## The reference's two results -/

/-- The messages after two updates. -/
theorem out1_eq : val_main_v62 (F := Ideal) x1 x2 x3 x4 x5 x6 x7
    = step x2 x3 x6 x7 (step x2 x3 x6 x7 (bonds0 x1 x4 x5)) := by
  rw [step2_eq, step1_eq, bonds0_eq]

/-- The atom read-out of them. -/
theorem out0_eq : val_main_v72 (F := Ideal) x0 x1 x2 x3 x4 x5 x6 x7 x8 x9
    = atoms x0 x2 x3 x8 x9 (step x2 x3 x6 x7 (step x2 x3 x6 x7 (bonds0 x1 x4 x5))) := by
  rw [atoms_eq, out1_eq]

end Cert.ReferenceIdeal.Stages

end
-- ==== Proof.lean ====
/-
  The certificate of a message-passing network over a molecular graph: 400000 directed bonds with 147 features,
  100000 atoms with 133, hidden width 300, two rounds of message passing and an atom read-out.

    H₀ = max (f_bonds·Wiᵀ + bi, 0)
    Hₖ₊₁ = max ((Hₖ + incoming Hₖ · Whᵀ) + bh, 0),  incoming H = (sum of H over the bonds arriving at a bond's source atom)
                                                               − (the reverse bond's row of H)
    A = max ([f_atoms | sum of H₂ per atom]·Woᵀ + bo, 0)

  The kernel computes the three dense layers in four pallas_calls, tiled over rows, and leaves the irregular sums
  and reads to the host; the reference does everything on the host. Three facts join them on the extended reals.
  A row tile of a dense layer is the layer of the row tile, so the tiles of a call assemble to the layer of the
  whole arrays (BondProj, Update1, Update2, AtomOut). The host operations between the layers are the same
  operations in both programs (Net). And the reference's product over the joined columns [f_atoms | sums] is the
  kernel's sum of two products over the two row slices of Woᵀ, because a sum over 133 + 300 terms splits
  (HostLayers). No step moves a factor across a sum or cancels anything, so the entries may be any extended reals:
  the precondition is not used.

  The frames of the two kernel programs are the generated ones; the reference's is its generated run with the
  results dropped. The ideal pass rewrote nothing, so there is nothing to preserve.
-/
import proofs.«100600_j81458349736430_1_alg».proof.Defs
import proofs.«100600_j81458349736430_1_alg».proof.Proof.Gen.Kernel
import proofs.«100600_j81458349736430_1_alg».proof.Proof.Gen.Kernel.Frame
import proofs.«100600_j81458349736430_1_alg».proof.Proof.Gen.KernelIdeal
import proofs.«100600_j81458349736430_1_alg».proof.Proof.Gen.KernelIdeal.Frame
import proofs.«100600_j81458349736430_1_alg».proof.Proof.Gen.ReferenceIdeal
import proofs.«100600_j81458349736430_1_alg».proof.Proof.Gen.ReferenceIdeal.Run
import proofs.«100600_j81458349736430_1_alg».proof.Proof.Gen.ReferenceIdeal.Read
import proofs.«100600_j81458349736430_1_alg».proof.Proof.Gen.Pre_finite_inputs
import proofs.«100600_j81458349736430_1_alg».proof.Proof.KernelValue
import proofs.«100600_j81458349736430_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the atom read-out and the bond messages of the network of the arguments. -/
theorem algebraic : Cert.algebraic_KernelIdeal_ReferenceIdeal := by
  intro m ρ m' ρ' _ hagree
  refine ⟨fun c => (Cert.KernelIdeal.Net.atoms (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.KernelIdeal.Net.step (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (Cert.KernelIdeal.Net.step (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (Cert.KernelIdeal.Net.bonds0 (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))))),
    fun c => (Cert.KernelIdeal.Net.step (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (Cert.KernelIdeal.Net.step (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (Cert.KernelIdeal.Net.bonds0 (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))))), ?_, ?_⟩
  · exact (θ_run Cert.KernelIdeal.defs _ _).mono
      (fun r h c => ⟨(h c).1.trans (Cert.KernelIdeal.Chain.W8_atoms m ρ c), (h c).2.1.trans (Cert.KernelIdeal.Chain.W8_msgs m ρ c), (h c).2.2⟩)
      (Cert.KernelIdeal.Gen.run_named m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9⟩ := hagree c
      rw [Cert.ReferenceIdeal.Read.val_main_v72_eq, Cert.ReferenceIdeal.Stages.out0_eq, e0, e1, e2, e3, e4, e5, e6, e7, e8, e9]
    · obtain ⟨e0, e1, e2, e3, e4, e5, e6, e7, e8, e9⟩ := hagree c
      rw [Cert.ReferenceIdeal.Read.val_main_v62_eq, Cert.ReferenceIdeal.Stages.out1_eq, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
